-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3 : Shape := ⟨2, ![32, 3]⟩
abbrev S100000x128 : Shape := ⟨2, ![100000, 128]⟩
abbrev S1000x64 : Shape := ⟨2, ![1000, 64]⟩
abbrev S_ : Shape := ⟨0, ![]⟩
abbrev S32x1 : Shape := ⟨2, ![32, 1]⟩
abbrev S32 : Shape := ⟨1, ![32]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  slices_S32x3_S32x1_0_0 : S32x3.Slices ![0, 0] S32x1
  shapeCasts_S32x1_S32 : S32x1.ShapeCasts S32
  bcast_S_S32 : S_.BroadcastsInDim S32 (![] : Fin 0 → Fin S32.rank)
  reducesTo_S32_S_d0 : S32.ReducesTo [0] S_
  slices_S32x3_S32x1_0_1 : S32x3.Slices ![0, 1] S32x1

variable [Facts]

def fn_part1 {F : FTy → Type} [FloatOps F] (main_arg0 : IVec S32x3 32) (main_v8 : IVec S_ 1) (main_v17 : IVec S32 1) : IVec S_ 1 :=
  let main_c_4 : IVec S_ 1 := constantI S_ 1 1#1
  let main_v18 : IVec S_ 1 := (fun x v => Host.reduce IntOp.andi x v reducesTo_S32_S_d0 h_S_) main_v17 main_c_4
  let main_v19 : IVec S_ 1 := andi main_v8 main_v18
  let main_v20 : IVec S32x1 32 := (extractStridedSlice S32x1 ![0, 1] · slices_S32x3_S32x1_0_1) main_arg0
  let main_v21 : IVec S32 32 := shapeCast S32 main_v20 shapeCasts_S32x1_S32
  let main_c_5 : IVec S_ 32 := constantI S_ 32 0#32
  let main_v22 : IVec S32 32 := broadcastInDim S32 ![] bcast_S_S32 main_c_5
  let main_v23 : IVec S32 1 := cmpi .sge main_v21 main_v22
  let main_v24 : IVec S32x1 32 := (extractStridedSlice S32x1 ![0, 1] · slices_S32x3_S32x1_0_1) main_arg0
  let main_v25 : IVec S32 32 := shapeCast S32 main_v24 shapeCasts_S32x1_S32
  let main_c_6 : IVec S_ 32 := constantI S_ 32 1000#32
  let main_v26 : IVec S32 32 := broadcastInDim S32 ![] bcast_S_S32 main_c_6
  let main_v27 : IVec S32 1 := cmpi .slt main_v25 main_v26
  let main_v28 : IVec S32 1 := andi main_v23 main_v27
  let main_c_7 : IVec S_ 1 := constantI S_ 1 1#1
  let main_v29 : IVec S_ 1 := (fun x v => Host.reduce IntOp.andi x v reducesTo_S32_S_d0 h_S_) main_v28 main_c_7
  let main_v30 : IVec S_ 1 := andi main_v19 main_v29
  main_v30

def fn {F : FTy → Type} [FloatOps F] (main_arg0 : IVec S32x3 32) (main_arg1 : FVec F S100000x128 .f32) (main_arg2 : FVec F S1000x64 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000x64 .f32 := Host.absf main_arg2
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_v9 : IVec S32x1 32 := (extractStridedSlice S32x1 ![0, 0] · slices_S32x3_S32x1_0_0) main_arg0
  let main_v10 : IVec S32 32 := shapeCast S32 main_v9 shapeCasts_S32x1_S32
  let main_c_2 : IVec S_ 32 := constantI S_ 32 0#32
  let main_v11 : IVec S32 32 := broadcastInDim S32 ![] bcast_S_S32 main_c_2
  let main_v12 : IVec S32 1 := cmpi .sge main_v10 main_v11
  let main_v13 : IVec S32x1 32 := (extractStridedSlice S32x1 ![0, 0] · slices_S32x3_S32x1_0_0) main_arg0
  let main_v14 : IVec S32 32 := shapeCast S32 main_v13 shapeCasts_S32x1_S32
  let main_c_3 : IVec S_ 32 := constantI S_ 32 100000#32
  let main_v15 : IVec S32 32 := broadcastInDim S32 ![] bcast_S_S32 main_c_3
  let main_v16 : IVec S32 1 := cmpi .slt main_v14 main_v15
  let main_v17 : IVec S32 1 := andi main_v12 main_v16
  fn_part1 (F := F) main_arg0 main_v8 main_v17
-- ==== Kernel.lean ====
abbrev S32x3 : Shape := ⟨2, ![32, 3]⟩
abbrev S100000x128 : Shape := ⟨2, ![100000, 128]⟩
abbrev S1000x64 : Shape := ⟨2, ![1000, 64]⟩
abbrev S32x1 : Shape := ⟨2, ![32, 1]⟩
abbrev S32 : Shape := ⟨1, ![32]⟩
abbrev S_ : Shape := ⟨0, ![]⟩
abbrev S1 : Shape := ⟨1, ![1]⟩
abbrev S1x1 : Shape := ⟨2, ![1, 1]⟩
abbrev S32x128 : Shape := ⟨2, ![32, 128]⟩
abbrev S32x64 : Shape := ⟨2, ![32, 64]⟩
abbrev S32x100000 : Shape := ⟨2, ![32, 100000]⟩
abbrev S8192x128 : Shape := ⟨2, ![8192, 128]⟩
abbrev S32x8192 : Shape := ⟨2, ![32, 8192]⟩
abbrev S8192x64 : Shape := ⟨2, ![8192, 64]⟩
abbrev S1x64 : Shape := ⟨2, ![1, 64]⟩
abbrev S64 : Shape := ⟨1, ![64]⟩
abbrev S8192 : Shape := ⟨1, ![8192]⟩
abbrev S1x8192 : Shape := ⟨2, ![1, 8192]⟩

abbrev nBuf : Space → Nat
  | .hbm => 67
  | .vmem => 6
  | .smem => 0
  | _ => 0

abbrev bufTy : (tb : Table) → Fin (tcTables nBuf tb) → BufTy
  | .hbm, ⟨0, _⟩ => ⟨S32x3, .i32⟩
  | .hbm, ⟨1, _⟩ => ⟨S100000x128, .f32⟩
  | .hbm, ⟨2, _⟩ => ⟨S1000x64, .f32⟩
  | .hbm, ⟨3, _⟩ => ⟨S32x1, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S1, .i32⟩
  | .hbm, ⟨14, _⟩ => ⟨S_, .i32⟩
  | .hbm, ⟨15, _⟩ => ⟨S32x1, .i32⟩
  | .hbm, ⟨16, _⟩ => ⟨S32x1, .i1⟩
  | .hbm, ⟨17, _⟩ => ⟨S1x1, .i32⟩
  | .hbm, ⟨18, _⟩ => ⟨S32x1, .i32⟩
  | .hbm, ⟨19, _⟩ => ⟨S32x1, .i1⟩
  | .hbm, ⟨20, _⟩ => ⟨S32x1, .i1⟩
  | .hbm, ⟨21, _⟩ => ⟨S_, .i1⟩
  | .hbm, ⟨22, _⟩ => ⟨S32, .i1⟩
  | .hbm, ⟨23, _⟩ => ⟨S32x128, .f32⟩
  | .hbm, ⟨24, _⟩ => ⟨S32x128, .i1⟩
  | .hbm, ⟨25, _⟩ => ⟨S_, .f32⟩
  | .hbm, ⟨26, _⟩ => ⟨S32x128, .f32⟩
  | .hbm, ⟨27, _⟩ => ⟨S32x128, .f32⟩
  | .hbm, ⟨28, _⟩ => ⟨S32x1, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i1⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32, .i32⟩
  | .hbm, ⟨37, _⟩ => ⟨S32x1, .i32⟩
  | .hbm, ⟨38, _⟩ => ⟨S1, .i32⟩
  | .hbm, ⟨39, _⟩ => ⟨S_, .i32⟩
  | .hbm, ⟨40, _⟩ => ⟨S32x1, .i32⟩
  | .hbm, ⟨41, _⟩ => ⟨S32x1, .i1⟩
  | .hbm, ⟨42, _⟩ => ⟨S1x1, .i32⟩
  | .hbm, ⟨43, _⟩ => ⟨S32x1, .i32⟩
  | .hbm, ⟨44, _⟩ => ⟨S32x1, .i1⟩
  | .hbm, ⟨45, _⟩ => ⟨S32x1, .i1⟩
  | .hbm, ⟨46, _⟩ => ⟨S_, .i1⟩
  | .hbm, ⟨47, _⟩ => ⟨S32, .i1⟩
  | .hbm, ⟨48, _⟩ => ⟨S32x64, .f32⟩
  | .hbm, ⟨49, _⟩ => ⟨S32x64, .i1⟩
  | .hbm, ⟨50, _⟩ => ⟨S_, .f32⟩
  | .hbm, ⟨51, _⟩ => ⟨S32x64, .f32⟩
  | .hbm, ⟨52, _⟩ => ⟨S32x64, .f32⟩
  | .hbm, ⟨53, _⟩ => ⟨S32x64, .f32⟩
  | .hbm, ⟨54, _⟩ => ⟨S32x64, .f32⟩
  | .hbm, ⟨55, _⟩ => ⟨S_, .f32⟩
  | .hbm, ⟨56, _⟩ => ⟨S32x64, .f32⟩
  | .hbm, ⟨57, _⟩ => ⟨S32x64, .f32⟩
  | .hbm, ⟨58, _⟩ => ⟨S32x64, .f32⟩
  | .hbm, ⟨59, _⟩ => ⟨S32x64, .f32⟩
  | .hbm, ⟨60, _⟩ => ⟨S32x64, .f32⟩
  | .hbm, ⟨61, _⟩ => ⟨S32x64, .f32⟩
  | .hbm, ⟨62, _⟩ => ⟨S32x64, .f32⟩
  | .hbm, ⟨63, _⟩ => ⟨S32x64, .f32⟩
  | .hbm, ⟨64, _⟩ => ⟨S32x64, .f32⟩
  | .hbm, ⟨65, _⟩ => ⟨S32x64, .f32⟩
  | .hbm, ⟨66, _⟩ => ⟨S32x100000, .f32⟩
  | .local _ .vmem, ⟨0, _⟩ => ⟨S32x64, .f32⟩
  | .local _ .vmem, ⟨1, _⟩ => ⟨S32x64, .f32⟩
  | .local _ .vmem, ⟨2, _⟩ => ⟨S8192x128, .f32⟩
  | .local _ .vmem, ⟨3, _⟩ => ⟨S8192x128, .f32⟩
  | .local _ .vmem, ⟨4, _⟩ => ⟨S32x8192, .f32⟩
  | .local _ .vmem, ⟨5, _⟩ => ⟨S32x8192, .f32⟩
  | _, _ => ⟨S32x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S32x3_S32x1_0_0 : S32x3.Slices ![0, 0] S32x1
  shapeCasts_S32x1_S32 : S32x1.ShapeCasts S32
  bcast_S_S32 : S_.BroadcastsInDim S32 (![] : Fin 0 → Fin S32.rank)
  bcast_S32_S32x1_0 : S32.BroadcastsInDim S32x1 (![0] : Fin 1 → Fin S32x1.rank)
  bcast_S_S32x1 : S_.BroadcastsInDim S32x1 (![] : Fin 0 → Fin S32x1.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  reducesTo_S32x1_S32_d1 : S32x1.ReducesTo [1] S32
  h_S_ : 0 < S_.numel
  bcast_S32_S32x128_0 : S32.BroadcastsInDim S32x128 (![0] : Fin 1 → Fin S32x128.rank)
  bcast_S_S32x128 : S_.BroadcastsInDim S32x128 (![] : Fin 0 → Fin S32x128.rank)
  slices_S32x3_S32x1_0_1 : S32x3.Slices ![0, 1] S32x1
  bcast_S32_S32x64_0 : S32.BroadcastsInDim S32x64 (![0] : Fin 1 → Fin S32x64.rank)
  bcast_S_S32x64 : S_.BroadcastsInDim S32x64 (![] : Fin 0 → Fin S32x64.rank)
  slices_S32x128_S32x64_0_0 : S32x128.Slices ![0, 0] S32x64
  slices_S32x128_S32x64_0_64 : S32x128.Slices ![0, 64] S32x64
  inb_S8192x128_S8192x128_0_0 : ∀ a, (![0, 0] : Fin 2 → Nat) a + S8192x128.size a ≤ S8192x128.size a
  h_S8192x128 : 0 < S8192x128.numel
  slices_S8192x128_o0_0_S8192x64 : S8192x128.Slices ![0, 0] S8192x64
  slices_S8192x128_o0_64_S8192x64 : S8192x128.Slices ![0, 64] S8192x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  slices_S32x64_o0_0_S1x64 : S32x64.Slices ![0, 0] S1x64
  shapeCasts_S1x64_S64 : S1x64.ShapeCasts S64
  shapeCasts_S64_S1x64 : S64.ShapeCasts S1x64
  broadcasts_S1x64_S8192x64 : S1x64.Broadcasts S8192x64
  reduces_S8192x64_S8192 : S8192x64.Reduces [1] S8192
  inb_S32x8192_S1x8192_0_0 : ∀ a, (![0, 0] : Fin 2 → Nat) a + S1x8192.size a ≤ S32x8192.size a
  h_S1x8192 : 0 < S1x8192.numel
  shapeCasts_S1x8192_S8192 : S1x8192.ShapeCasts S8192
  shapeCasts_S8192_S1x8192 : S8192.ShapeCasts S1x8192
  slices_S32x64_o1_0_S1x64 : S32x64.Slices ![1, 0] S1x64
  inb_S32x8192_S1x8192_1_0 : ∀ a, (![1, 0] : Fin 2 → Nat) a + S1x8192.size a ≤ S32x8192.size a
  slices_S32x64_o2_0_S1x64 : S32x64.Slices ![2, 0] S1x64
  inb_S32x8192_S1x8192_2_0 : ∀ a, (![2, 0] : Fin 2 → Nat) a + S1x8192.size a ≤ S32x8192.size a
  slices_S32x64_o3_0_S1x64 : S32x64.Slices ![3, 0] S1x64
  inb_S32x8192_S1x8192_3_0 : ∀ a, (![3, 0] : Fin 2 → Nat) a + S1x8192.size a ≤ S32x8192.size a
  slices_S32x64_o4_0_S1x64 : S32x64.Slices ![4, 0] S1x64
  inb_S32x8192_S1x8192_4_0 : ∀ a, (![4, 0] : Fin 2 → Nat) a + S1x8192.size a ≤ S32x8192.size a
  slices_S32x64_o5_0_S1x64 : S32x64.Slices ![5, 0] S1x64
  inb_S32x8192_S1x8192_5_0 : ∀ a, (![5, 0] : Fin 2 → Nat) a + S1x8192.size a ≤ S32x8192.size a
  slices_S32x64_o6_0_S1x64 : S32x64.Slices ![6, 0] S1x64
  inb_S32x8192_S1x8192_6_0 : ∀ a, (![6, 0] : Fin 2 → Nat) a + S1x8192.size a ≤ S32x8192.size a
  slices_S32x64_o7_0_S1x64 : S32x64.Slices ![7, 0] S1x64
  inb_S32x8192_S1x8192_7_0 : ∀ a, (![7, 0] : Fin 2 → Nat) a + S1x8192.size a ≤ S32x8192.size a
  slices_S32x64_o8_0_S1x64 : S32x64.Slices ![8, 0] S1x64
  inb_S32x8192_S1x8192_8_0 : ∀ a, (![8, 0] : Fin 2 → Nat) a + S1x8192.size a ≤ S32x8192.size a
  slices_S32x64_o9_0_S1x64 : S32x64.Slices ![9, 0] S1x64
  inb_S32x8192_S1x8192_9_0 : ∀ a, (![9, 0] : Fin 2 → Nat) a + S1x8192.size a ≤ S32x8192.size a
  slices_S32x64_o10_0_S1x64 : S32x64.Slices ![10, 0] S1x64
  inb_S32x8192_S1x8192_10_0 : ∀ a, (![10, 0] : Fin 2 → Nat) a + S1x8192.size a ≤ S32x8192.size a
  slices_S32x64_o11_0_S1x64 : S32x64.Slices ![11, 0] S1x64
  inb_S32x8192_S1x8192_11_0 : ∀ a, (![11, 0] : Fin 2 → Nat) a + S1x8192.size a ≤ S32x8192.size a
  slices_S32x64_o12_0_S1x64 : S32x64.Slices ![12, 0] S1x64
  inb_S32x8192_S1x8192_12_0 : ∀ a, (![12, 0] : Fin 2 → Nat) a + S1x8192.size a ≤ S32x8192.size a
  slices_S32x64_o13_0_S1x64 : S32x64.Slices ![13, 0] S1x64
  inb_S32x8192_S1x8192_13_0 : ∀ a, (![13, 0] : Fin 2 → Nat) a + S1x8192.size a ≤ S32x8192.size a
  slices_S32x64_o14_0_S1x64 : S32x64.Slices ![14, 0] S1x64
  inb_S32x8192_S1x8192_14_0 : ∀ a, (![14, 0] : Fin 2 → Nat) a + S1x8192.size a ≤ S32x8192.size a
  slices_S32x64_o15_0_S1x64 : S32x64.Slices ![15, 0] S1x64
  inb_S32x8192_S1x8192_15_0 : ∀ a, (![15, 0] : Fin 2 → Nat) a + S1x8192.size a ≤ S32x8192.size a
  slices_S32x64_o16_0_S1x64 : S32x64.Slices ![16, 0] S1x64
  inb_S32x8192_S1x8192_16_0 : ∀ a, (![16, 0] : Fin 2 → Nat) a + S1x8192.size a ≤ S32x8192.size a
  slices_S32x64_o17_0_S1x64 : S32x64.Slices ![17, 0] S1x64
  inb_S32x8192_S1x8192_17_0 : ∀ a, (![17, 0] : Fin 2 → Nat) a + S1x8192.size a ≤ S32x8192.size a
  slices_S32x64_o18_0_S1x64 : S32x64.Slices ![18, 0] S1x64
  inb_S32x8192_S1x8192_18_0 : ∀ a, (![18, 0] : Fin 2 → Nat) a + S1x8192.size a ≤ S32x8192.size a
  slices_S32x64_o19_0_S1x64 : S32x64.Slices ![19, 0] S1x64
  inb_S32x8192_S1x8192_19_0 : ∀ a, (![19, 0] : Fin 2 → Nat) a + S1x8192.size a ≤ S32x8192.size a
  slices_S32x64_o20_0_S1x64 : S32x64.Slices ![20, 0] S1x64
  inb_S32x8192_S1x8192_20_0 : ∀ a, (![20, 0] : Fin 2 → Nat) a + S1x8192.size a ≤ S32x8192.size a
  slices_S32x64_o21_0_S1x64 : S32x64.Slices ![21, 0] S1x64
  inb_S32x8192_S1x8192_21_0 : ∀ a, (![21, 0] : Fin 2 → Nat) a + S1x8192.size a ≤ S32x8192.size a
  slices_S32x64_o22_0_S1x64 : S32x64.Slices ![22, 0] S1x64
  inb_S32x8192_S1x8192_22_0 : ∀ a, (![22, 0] : Fin 2 → Nat) a + S1x8192.size a ≤ S32x8192.size a
  slices_S32x64_o23_0_S1x64 : S32x64.Slices ![23, 0] S1x64
  inb_S32x8192_S1x8192_23_0 : ∀ a, (![23, 0] : Fin 2 → Nat) a + S1x8192.size a ≤ S32x8192.size a
  slices_S32x64_o24_0_S1x64 : S32x64.Slices ![24, 0] S1x64
  inb_S32x8192_S1x8192_24_0 : ∀ a, (![24, 0] : Fin 2 → Nat) a + S1x8192.size a ≤ S32x8192.size a
  slices_S32x64_o25_0_S1x64 : S32x64.Slices ![25, 0] S1x64
  inb_S32x8192_S1x8192_25_0 : ∀ a, (![25, 0] : Fin 2 → Nat) a + S1x8192.size a ≤ S32x8192.size a
  slices_S32x64_o26_0_S1x64 : S32x64.Slices ![26, 0] S1x64
  inb_S32x8192_S1x8192_26_0 : ∀ a, (![26, 0] : Fin 2 → Nat) a + S1x8192.size a ≤ S32x8192.size a
  slices_S32x64_o27_0_S1x64 : S32x64.Slices ![27, 0] S1x64
  inb_S32x8192_S1x8192_27_0 : ∀ a, (![27, 0] : Fin 2 → Nat) a + S1x8192.size a ≤ S32x8192.size a
  slices_S32x64_o28_0_S1x64 : S32x64.Slices ![28, 0] S1x64
  inb_S32x8192_S1x8192_28_0 : ∀ a, (![28, 0] : Fin 2 → Nat) a + S1x8192.size a ≤ S32x8192.size a
  slices_S32x64_o29_0_S1x64 : S32x64.Slices ![29, 0] S1x64
  inb_S32x8192_S1x8192_29_0 : ∀ a, (![29, 0] : Fin 2 → Nat) a + S1x8192.size a ≤ S32x8192.size a
  slices_S32x64_o30_0_S1x64 : S32x64.Slices ![30, 0] S1x64
  inb_S32x8192_S1x8192_30_0 : ∀ a, (![30, 0] : Fin 2 → Nat) a + S1x8192.size a ≤ S32x8192.size a
  slices_S32x64_o31_0_S1x64 : S32x64.Slices ![31, 0] S1x64
  inb_S32x8192_S1x8192_31_0 : ∀ a, (![31, 0] : Fin 2 → Nat) a + S1x8192.size a ≤ S32x8192.size a
  gather_S100000x128_S32x1_S32x128_1_0_n_n_0_1_1128_wf : GatherDims.WF S100000x128 S32x1 S32x128 [1] [0] [] [0] [] 1 ![1, 128]
  gather_S1000x64_S32x1_S32x64_1_0_n_n_0_1_164_wf : GatherDims.WF S1000x64 S32x1 S32x64 [1] [0] [] [0] [] 1 ![1, 64]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x64.size a ≤ S32x64.size a
  hwx0_0 : ∀ i : grid0.Coords, EltTy.bits .f32 = 32 ∨ (Rect.block (s := S32x64) S32x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x128.size a < S100000x128.size a
  hwx0_2 : ∀ i : grid0.Coords, EltTy.bits .f32 = 32 ∨ (Rect.unit (s := S100000x128) (fun a => cc0_transform_2 i a * S8192x128.size a) (fun a => (Pipeline.Clip.of (cc0_transform_2 i a) (S8192x128.size a) (S100000x128.size a)).extent (S8192x128.size a)) fun a => Pipeline.Clip.inb (Pipeline.Clip.ok_of (hstart0_2 i a))).WholeWords (EltTy.packing .f32)
  hwxs0_2 : ∀ i : grid0.Coords, EltTy.bits .f32 = 32 ∨ (Rect.unit (s := S8192x128) (fun _ => 0) (fun a => (Pipeline.Clip.of (cc0_transform_2 i a) (S8192x128.size a) (S100000x128.size a)).extent (S8192x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x8192.size a < S32x100000.size a
  hwx0_3 : ∀ i : grid0.Coords, EltTy.bits .f32 = 32 ∨ (Rect.unit (s := S32x100000) (fun a => cc0_transform_3 i a * S32x8192.size a) (fun a => (Pipeline.Clip.of (cc0_transform_3 i a) (S32x8192.size a) (S32x100000.size a)).extent (S32x8192.size a)) fun a => Pipeline.Clip.inb (Pipeline.Clip.ok_of (hstart0_3 i a))).WholeWords (EltTy.packing .f32)
  hwxs0_3 : ∀ i : grid0.Coords, EltTy.bits .f32 = 32 ∨ (Rect.unit (s := S32x8192) (fun _ => 0) (fun a => (Pipeline.Clip.of (cc0_transform_3 i a) (S32x8192.size a) (S32x100000.size a)).extent (S32x8192.size a)) fun a => (Nat.zero_add _).trans_le (Pipeline.Clip.extent_le (Pipeline.Clip.ok_of (hstart0_3 i a)))).WholeWords (EltTy.packing .f32)

variable [Facts₀]

def gather_S100000x128_S32x1_S32x128_1_0_n_n_0_1_1128 : GatherDims S100000x128 S32x1 S32x128 where
  offsetDims := [1]
  collapsedSliceDims := [0]
  operandBatchingDims := []
  startIndicesBatchingDims := []
  startIndexMap := [0]
  indexVectorDim := 1
  sliceSizes := ![1, 128]
  wf := gather_S100000x128_S32x1_S32x128_1_0_n_n_0_1_1128_wf
def gather_S1000x64_S32x1_S32x64_1_0_n_n_0_1_164 : GatherDims S1000x64 S32x1 S32x64 where
  offsetDims := [1]
  collapsedSliceDims := [0]
  operandBatchingDims := []
  startIndicesBatchingDims := []
  startIndexMap := [0]
  indexVectorDim := 1
  sliceSizes := ![1, 64]
  wf := gather_S1000x64_S32x1_S32x64_1_0_n_n_0_1_164_wf

abbrev win0_0 : Pipeline.Window sig grid0 :=
  Pipeline.Window.ofSpec (Memref.whole main_v14) S32x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v17) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S8192x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v18) S32x8192.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x3 : Shape := ⟨2, ![32, 3]⟩
abbrev S100000x128 : Shape := ⟨2, ![100000, 128]⟩
abbrev S1000x64 : Shape := ⟨2, ![1000, 64]⟩
abbrev S32x1 : Shape := ⟨2, ![32, 1]⟩
abbrev S32 : Shape := ⟨1, ![32]⟩
abbrev S_ : Shape := ⟨0, ![]⟩
abbrev S32x128 : Shape := ⟨2, ![32, 128]⟩
abbrev S32x64 : Shape := ⟨2, ![32, 64]⟩
abbrev S100000x64 : Shape := ⟨2, ![100000, 64]⟩
abbrev S32x1x64 : Shape := ⟨3, ![32, 1, 64]⟩
abbrev S1x100000x64 : Shape := ⟨3, ![1, 100000, 64]⟩
abbrev S32x100000x64 : Shape := ⟨3, ![32, 100000, 64]⟩
abbrev S32x100000 : Shape := ⟨2, ![32, 100000]⟩

abbrev nBuf : Space → Nat
  | .hbm => 59
  | .vmem => 0
  | .smem => 0
  | _ => 0

abbrev bufTy : (tb : Table) → Fin (tcTables nBuf tb) → BufTy
  | .hbm, ⟨0, _⟩ => ⟨S32x3, .i32⟩
  | .hbm, ⟨1, _⟩ => ⟨S100000x128, .f32⟩
  | .hbm, ⟨2, _⟩ => ⟨S1000x64, .f32⟩
  | .hbm, ⟨3, _⟩ => ⟨S32x1, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S32x128, .f32⟩
  | .hbm, ⟨14, _⟩ => ⟨S32x1, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .i32⟩
  | .hbm, ⟨23, _⟩ => ⟨S32x1, .i32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S100000x64, .f32⟩
  | .hbm, ⟨28, _⟩ => ⟨S100000x64, .f32⟩
  | .hbm, ⟨29, _⟩ => ⟨S_, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S32x64, .f32⟩
  | .hbm, ⟨37, _⟩ => ⟨S32x64, .f32⟩
  | .hbm, ⟨38, _⟩ => ⟨S32x64, .f32⟩
  | .hbm, ⟨39, _⟩ => ⟨S32x64, .f32⟩
  | .hbm, ⟨40, _⟩ => ⟨S32x1x64, .f32⟩
  | .hbm, ⟨41, _⟩ => ⟨S1x100000x64, .f32⟩
  | .hbm, ⟨42, _⟩ => ⟨S32x100000x64, .f32⟩
  | .hbm, ⟨43, _⟩ => ⟨S32x100000x64, .f32⟩
  | .hbm, ⟨44, _⟩ => ⟨S32x100000x64, .f32⟩
  | .hbm, ⟨45, _⟩ => ⟨S32x1x64, .f32⟩
  | .hbm, ⟨46, _⟩ => ⟨S1x100000x64, .f32⟩
  | .hbm, ⟨47, _⟩ => ⟨S32x100000x64, .f32⟩
  | .hbm, ⟨48, _⟩ => ⟨S32x100000x64, .f32⟩
  | .hbm, ⟨49, _⟩ => ⟨S32x100000x64, .f32⟩
  | .hbm, ⟨50, _⟩ => ⟨S32x100000x64, .f32⟩
  | .hbm, ⟨51, _⟩ => ⟨S32x100000x64, .f32⟩
  | .hbm, ⟨52, _⟩ => ⟨S32x100000x64, .f32⟩
  | .hbm, ⟨53, _⟩ => ⟨S32x100000x64, .f32⟩
  | .hbm, ⟨54, _⟩ => ⟨S_, .f32⟩
  | .hbm, ⟨55, _⟩ => ⟨S32x100000, .f32⟩
  | .hbm, ⟨56, _⟩ => ⟨S_, .f32⟩
  | .hbm, ⟨57, _⟩ => ⟨S32x100000, .f32⟩
  | .hbm, ⟨58, _⟩ => ⟨S32x100000, .f32⟩
  | _, _ => ⟨S32x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_3 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]

class Facts₀ : Prop where
  slices_S32x3_S32x1_0_0 : S32x3.Slices ![0, 0] S32x1
  shapeCasts_S32x1_S32 : S32x1.ShapeCasts S32
  bcast_S_S32 : S_.BroadcastsInDim S32 (![] : Fin 0 → Fin S32.rank)
  bcast_S32_S32x1_0 : S32.BroadcastsInDim S32x1 (![0] : Fin 1 → Fin S32x1.rank)
  slices_S32x3_S32x1_0_1 : S32x3.Slices ![0, 1] S32x1
  slices_S32x128_S32x64_0_0 : S32x128.Slices ![0, 0] S32x64
  slices_S32x128_S32x64_0_64 : S32x128.Slices ![0, 64] S32x64
  slices_S100000x128_S100000x64_0_0 : S100000x128.Slices ![0, 0] S100000x64
  slices_S100000x128_S100000x64_0_64 : S100000x128.Slices ![0, 64] S100000x64
  bcast_S_S32x64 : S_.BroadcastsInDim S32x64 (![] : Fin 0 → Fin S32x64.rank)
  bcast_S32x64_S32x1x64_0_2 : S32x64.BroadcastsInDim S32x1x64 (![0, 2] : Fin 2 → Fin S32x1x64.rank)
  bcast_S100000x64_S1x100000x64_1_2 : S100000x64.BroadcastsInDim S1x100000x64 (![1, 2] : Fin 2 → Fin S1x100000x64.rank)
  bcast_S32x1x64_S32x100000x64_0_1_2 : S32x1x64.BroadcastsInDim S32x100000x64 (![0, 1, 2] : Fin 3 → Fin S32x100000x64.rank)
  bcast_S1x100000x64_S32x100000x64_0_1_2 : S1x100000x64.BroadcastsInDim S32x100000x64 (![0, 1, 2] : Fin 3 → Fin S32x100000x64.rank)
  reducesTo_S32x100000x64_S32x100000_d2 : S32x100000x64.ReducesTo [2] S32x100000
  h_S_ : 0 < S_.numel
  bcast_S_S32x100000 : S_.BroadcastsInDim S32x100000 (![] : Fin 0 → Fin S32x100000.rank)
  gather_S100000x128_S32x1_S32x128_1_0_n_n_0_1_1128_wf : GatherDims.WF S100000x128 S32x1 S32x128 [1] [0] [] [0] [] 1 ![1, 128]
  gather_S1000x64_S32x1_S32x64_1_0_n_n_0_1_164_wf : GatherDims.WF S1000x64 S32x1 S32x64 [1] [0] [] [0] [] 1 ![1, 64]

variable [Facts₀]

def gather_S100000x128_S32x1_S32x128_1_0_n_n_0_1_1128 : GatherDims S100000x128 S32x1 S32x128 where
  offsetDims := [1]
  collapsedSliceDims := [0]
  operandBatchingDims := []
  startIndicesBatchingDims := []
  startIndexMap := [0]
  indexVectorDim := 1
  sliceSizes := ![1, 128]
  wf := gather_S100000x128_S32x1_S32x128_1_0_n_n_0_1_1128_wf
def gather_S1000x64_S32x1_S32x64_1_0_n_n_0_1_164 : GatherDims S1000x64 S32x1 S32x64 where
  offsetDims := [1]
  collapsedSliceDims := [0]
  operandBatchingDims := []
  startIndicesBatchingDims := []
  startIndexMap := [0]
  indexVectorDim := 1
  sliceSizes := ![1, 64]
  wf := gather_S1000x64_S32x1_S32x64_1_0_n_n_0_1_164_wf

class Facts : Prop extends Facts₀ where

variable [Facts]
-- ==== Proof.BodyDefsBits.lean ====
/-
  What the distance kernel's body leaves in its output tile, as a term.

  At one grid point the body holds the two rotated-head blocks `x0` (real parts) and `x1` (imaginary parts),
  each 32 × 64, and one tile `x2` of 8192 entity rows, 128 wide. It loads all three whole, splits the tile
  into its real half (columns 0‥63) and imaginary half (columns 64‥127), and for each of the 32 query rows `b`
  stores one row of 8192 scores into row `b` of the 32 × 8192 output tile. `rowPay x0 x1 x2 b` is the
  value stored into row `b`, written over the program's own payload terms; `outTile` is the tile after the
  32 stores: the canonical contents of the 32 row pieces, which tile the buffer.
-/
import proofs.«405154_j39573828665596_1_alg».proof.Proof.Gen.Kernel.Skeleton
import Idealize.ShloMosaic.Lib.Pipeline.FrameBody
import Idealize.ShloMosaic.Lib.Writes

set_option maxRecDepth 16384

noncomputable section

namespace Cert.Kernel.Body

open Cert.Kernel Cert.Kernel.Gen
open Idealize.ShloMosaic Idealize.SL.Sem

variable {F : FTy → Type} [FloatOps F]

/-- The whole entity tile and the whole head block, as the rectangles the body loads them through. -/
abbrev rEnt : Rect S8192x128 := Rect.unit (s := S8192x128) ![0, 0] S8192x128.size inb_S8192x128_S8192x128_0_0
abbrev rHead : Rect S32x64 := Rect.unit (s := S32x64) ![0, 0] S32x64.size inb_S32x64_S32x64_0_0

/-- Row `b` of the output tile: the rectangle of the `b`-th store. -/
abbrev rRow0 : Rect S32x8192 := Rect.unit (s := S32x8192) ![0, 0] S1x8192.size inb_S32x8192_S1x8192_0_0
abbrev rRow1 : Rect S32x8192 := Rect.unit (s := S32x8192) ![1, 0] S1x8192.size inb_S32x8192_S1x8192_1_0
abbrev rRow2 : Rect S32x8192 := Rect.unit (s := S32x8192) ![2, 0] S1x8192.size inb_S32x8192_S1x8192_2_0
abbrev rRow3 : Rect S32x8192 := Rect.unit (s := S32x8192) ![3, 0] S1x8192.size inb_S32x8192_S1x8192_3_0
abbrev rRow4 : Rect S32x8192 := Rect.unit (s := S32x8192) ![4, 0] S1x8192.size inb_S32x8192_S1x8192_4_0
abbrev rRow5 : Rect S32x8192 := Rect.unit (s := S32x8192) ![5, 0] S1x8192.size inb_S32x8192_S1x8192_5_0
abbrev rRow6 : Rect S32x8192 := Rect.unit (s := S32x8192) ![6, 0] S1x8192.size inb_S32x8192_S1x8192_6_0
abbrev rRow7 : Rect S32x8192 := Rect.unit (s := S32x8192) ![7, 0] S1x8192.size inb_S32x8192_S1x8192_7_0
abbrev rRow8 : Rect S32x8192 := Rect.unit (s := S32x8192) ![8, 0] S1x8192.size inb_S32x8192_S1x8192_8_0
abbrev rRow9 : Rect S32x8192 := Rect.unit (s := S32x8192) ![9, 0] S1x8192.size inb_S32x8192_S1x8192_9_0
abbrev rRow10 : Rect S32x8192 := Rect.unit (s := S32x8192) ![10, 0] S1x8192.size inb_S32x8192_S1x8192_10_0
abbrev rRow11 : Rect S32x8192 := Rect.unit (s := S32x8192) ![11, 0] S1x8192.size inb_S32x8192_S1x8192_11_0
abbrev rRow12 : Rect S32x8192 := Rect.unit (s := S32x8192) ![12, 0] S1x8192.size inb_S32x8192_S1x8192_12_0
abbrev rRow13 : Rect S32x8192 := Rect.unit (s := S32x8192) ![13, 0] S1x8192.size inb_S32x8192_S1x8192_13_0
abbrev rRow14 : Rect S32x8192 := Rect.unit (s := S32x8192) ![14, 0] S1x8192.size inb_S32x8192_S1x8192_14_0
abbrev rRow15 : Rect S32x8192 := Rect.unit (s := S32x8192) ![15, 0] S1x8192.size inb_S32x8192_S1x8192_15_0
abbrev rRow16 : Rect S32x8192 := Rect.unit (s := S32x8192) ![16, 0] S1x8192.size inb_S32x8192_S1x8192_16_0
abbrev rRow17 : Rect S32x8192 := Rect.unit (s := S32x8192) ![17, 0] S1x8192.size inb_S32x8192_S1x8192_17_0
abbrev rRow18 : Rect S32x8192 := Rect.unit (s := S32x8192) ![18, 0] S1x8192.size inb_S32x8192_S1x8192_18_0
abbrev rRow19 : Rect S32x8192 := Rect.unit (s := S32x8192) ![19, 0] S1x8192.size inb_S32x8192_S1x8192_19_0
abbrev rRow20 : Rect S32x8192 := Rect.unit (s := S32x8192) ![20, 0] S1x8192.size inb_S32x8192_S1x8192_20_0
abbrev rRow21 : Rect S32x8192 := Rect.unit (s := S32x8192) ![21, 0] S1x8192.size inb_S32x8192_S1x8192_21_0
abbrev rRow22 : Rect S32x8192 := Rect.unit (s := S32x8192) ![22, 0] S1x8192.size inb_S32x8192_S1x8192_22_0
abbrev rRow23 : Rect S32x8192 := Rect.unit (s := S32x8192) ![23, 0] S1x8192.size inb_S32x8192_S1x8192_23_0
abbrev rRow24 : Rect S32x8192 := Rect.unit (s := S32x8192) ![24, 0] S1x8192.size inb_S32x8192_S1x8192_24_0
abbrev rRow25 : Rect S32x8192 := Rect.unit (s := S32x8192) ![25, 0] S1x8192.size inb_S32x8192_S1x8192_25_0
abbrev rRow26 : Rect S32x8192 := Rect.unit (s := S32x8192) ![26, 0] S1x8192.size inb_S32x8192_S1x8192_26_0
abbrev rRow27 : Rect S32x8192 := Rect.unit (s := S32x8192) ![27, 0] S1x8192.size inb_S32x8192_S1x8192_27_0
abbrev rRow28 : Rect S32x8192 := Rect.unit (s := S32x8192) ![28, 0] S1x8192.size inb_S32x8192_S1x8192_28_0
abbrev rRow29 : Rect S32x8192 := Rect.unit (s := S32x8192) ![29, 0] S1x8192.size inb_S32x8192_S1x8192_29_0
abbrev rRow30 : Rect S32x8192 := Rect.unit (s := S32x8192) ![30, 0] S1x8192.size inb_S32x8192_S1x8192_30_0
abbrev rRow31 : Rect S32x8192 := Rect.unit (s := S32x8192) ![31, 0] S1x8192.size inb_S32x8192_S1x8192_31_0

/-- The three loads: the entity tile, the heads' real parts, the heads' imaginary parts. -/
abbrev entT (x2 : Vec F S8192x128 .f32) : Vec F S8192x128 .f32 := View.ld x2 rEnt
abbrev hdRe (x0 : Vec F S32x64 .f32) : Vec F S32x64 .f32 := View.ld x0 rHead
abbrev hdIm (x1 : Vec F S32x64 .f32) : Vec F S32x64 .f32 := View.ld x1 rHead

/-- The tile's real half, its imaginary half, and the two head blocks as the body keeps them. -/
abbrev v1 (x2 : Vec F S8192x128 .f32) : FVec F S8192x64 .f32 := k0_pay3 (entT x2)
abbrev v2 (x2 : Vec F S8192x128 .f32) : FVec F S8192x64 .f32 := k0_pay4 (entT x2)
abbrev v4 (x0 : Vec F S32x64 .f32) : FVec F S32x64 .f32 := k0_pay5 (hdRe x0)
abbrev v6 (x1 : Vec F S32x64 .f32) : FVec F S32x64 .f32 := k0_pay6 (hdIm x1)

/-- The value the body stores into row `b` of the output tile (rows 32 and beyond are never stored; the last arm is a filler). -/
def rowPay (x0 x1 : Vec F S32x64 .f32) (x2 : Vec F S8192x128 .f32) : Nat → FVec F S1x8192 .f32
  | 0 => k0_pay7 (entT x2) (hdRe x0) (hdIm x1)
  | 1 => k0_pay9 (k0_pay8 (entT x2) (hdRe x0) (hdIm x1))
  | 2 => k0_pay10 (v1 x2) (v2 x2) (v4 x0) (v6 x1)
  | 3 => k0_pay11 (v1 x2) (v2 x2) (v4 x0) (v6 x1)
  | 4 => k0_pay14 (v1 x2) (v2 x2) (k0_pay12 (v4 x0)) (k0_pay13 (v6 x1))
  | 5 => k0_pay15 (v1 x2) (v2 x2) (v4 x0) (v6 x1)
  | 6 => k0_pay17 (k0_pay16 (v1 x2) (v2 x2) (v4 x0) (v6 x1))
  | 7 => k0_pay18 (v1 x2) (v2 x2) (v4 x0) (v6 x1)
  | 8 => k0_pay19 (v1 x2) (v2 x2) (v4 x0) (v6 x1)
  | 9 => k0_pay21 (v1 x2) (v2 x2) (v6 x1) (k0_pay20 (v4 x0))
  | 10 => k0_pay22 (v1 x2) (v2 x2) (v4 x0) (v6 x1)
  | 11 => k0_pay25 (k0_pay23 (v2 x2) (v6 x1)) (k0_pay24 (v1 x2) (v4 x0))
  | 12 => k0_pay26 (v1 x2) (v2 x2) (v4 x0) (v6 x1)
  | 13 => k0_pay28 (k0_pay27 (v1 x2) (v2 x2) (v4 x0) (v6 x1))
  | 14 => k0_pay29 (v1 x2) (v2 x2) (v4 x0) (v6 x1)
  | 15 => k0_pay30 (v1 x2) (v2 x2) (v4 x0) (v6 x1)
  | 16 => k0_pay33 (v1 x2) (v2 x2) (k0_pay31 (v4 x0)) (k0_pay32 (v6 x1))
  | 17 => k0_pay34 (v1 x2) (v2 x2) (v4 x0) (v6 x1)
  | 18 => k0_pay36 (k0_pay35 (v1 x2) (v2 x2) (v4 x0) (v6 x1))
  | 19 => k0_pay37 (v1 x2) (v2 x2) (v4 x0) (v6 x1)
  | 20 => k0_pay38 (v1 x2) (v2 x2) (v4 x0) (v6 x1)
  | 21 => k0_pay40 (v1 x2) (v2 x2) (v6 x1) (k0_pay39 (v4 x0))
  | 22 => k0_pay41 (v1 x2) (v2 x2) (v4 x0) (v6 x1)
  | 23 => k0_pay44 (k0_pay42 (v2 x2) (v6 x1)) (k0_pay43 (v1 x2) (v4 x0))
  | 24 => k0_pay45 (v1 x2) (v2 x2) (v4 x0) (v6 x1)
  | 25 => k0_pay47 (k0_pay46 (v1 x2) (v2 x2) (v4 x0) (v6 x1))
  | 26 => k0_pay48 (v1 x2) (v2 x2) (v4 x0) (v6 x1)
  | 27 => k0_pay49 (v1 x2) (v2 x2) (v4 x0) (v6 x1)
  | 28 => k0_pay52 (v1 x2) (v2 x2) (k0_pay50 (v4 x0)) (k0_pay51 (v6 x1))
  | 29 => k0_pay53 (v1 x2) (v2 x2) (v4 x0) (v6 x1)
  | 30 => k0_pay1 (k0_pay54 (v1 x2) (v2 x2) (v4 x0) (v6 x1))
  | 31 => k0_pay2 (v1 x2) (v2 x2) (v4 x0) (v6 x1)
  | _ => k0_pay2 (v1 x2) (v2 x2) (v4 x0) (v6 x1)

/-- The output tile after the body: the 32 row stores, the last one first. -/
def outTile (x0 x1 : Vec F S32x64 .f32) (x2 : Vec F S8192x128 .f32) : Vec F S32x8192 .f32 :=
  View.canon [⟨rRow31, rowPay x0 x1 x2 31⟩,
    ⟨rRow30, rowPay x0 x1 x2 30⟩,
    ⟨rRow29, rowPay x0 x1 x2 29⟩,
    ⟨rRow28, rowPay x0 x1 x2 28⟩,
    ⟨rRow27, rowPay x0 x1 x2 27⟩,
    ⟨rRow26, rowPay x0 x1 x2 26⟩,
    ⟨rRow25, rowPay x0 x1 x2 25⟩,
    ⟨rRow24, rowPay x0 x1 x2 24⟩,
    ⟨rRow23, rowPay x0 x1 x2 23⟩,
    ⟨rRow22, rowPay x0 x1 x2 22⟩,
    ⟨rRow21, rowPay x0 x1 x2 21⟩,
    ⟨rRow20, rowPay x0 x1 x2 20⟩,
    ⟨rRow19, rowPay x0 x1 x2 19⟩,
    ⟨rRow18, rowPay x0 x1 x2 18⟩,
    ⟨rRow17, rowPay x0 x1 x2 17⟩,
    ⟨rRow16, rowPay x0 x1 x2 16⟩,
    ⟨rRow15, rowPay x0 x1 x2 15⟩,
    ⟨rRow14, rowPay x0 x1 x2 14⟩,
    ⟨rRow13, rowPay x0 x1 x2 13⟩,
    ⟨rRow12, rowPay x0 x1 x2 12⟩,
    ⟨rRow11, rowPay x0 x1 x2 11⟩,
    ⟨rRow10, rowPay x0 x1 x2 10⟩,
    ⟨rRow9, rowPay x0 x1 x2 9⟩,
    ⟨rRow8, rowPay x0 x1 x2 8⟩,
    ⟨rRow7, rowPay x0 x1 x2 7⟩,
    ⟨rRow6, rowPay x0 x1 x2 6⟩,
    ⟨rRow5, rowPay x0 x1 x2 5⟩,
    ⟨rRow4, rowPay x0 x1 x2 4⟩,
    ⟨rRow3, rowPay x0 x1 x2 3⟩,
    ⟨rRow2, rowPay x0 x1 x2 2⟩,
    ⟨rRow1, rowPay x0 x1 x2 1⟩,
    ⟨rRow0, rowPay x0 x1 x2 0⟩]

/-- The 32 rows tile the buffer, so every index lies under one of them. -/
theorem cover_rows (p : Nat → FVec F S1x8192 .f32) (y : S32x8192.Idx) :
    ∃ pc ∈ ([⟨rRow31, p 31⟩,
      ⟨rRow30, p 30⟩,
      ⟨rRow29, p 29⟩,
      ⟨rRow28, p 28⟩,
      ⟨rRow27, p 27⟩,
      ⟨rRow26, p 26⟩,
      ⟨rRow25, p 25⟩,
      ⟨rRow24, p 24⟩,
      ⟨rRow23, p 23⟩,
      ⟨rRow22, p 22⟩,
      ⟨rRow21, p 21⟩,
      ⟨rRow20, p 20⟩,
      ⟨rRow19, p 19⟩,
      ⟨rRow18, p 18⟩,
      ⟨rRow17, p 17⟩,
      ⟨rRow16, p 16⟩,
      ⟨rRow15, p 15⟩,
      ⟨rRow14, p 14⟩,
      ⟨rRow13, p 13⟩,
      ⟨rRow12, p 12⟩,
      ⟨rRow11, p 11⟩,
      ⟨rRow10, p 10⟩,
      ⟨rRow9, p 9⟩,
      ⟨rRow8, p 8⟩,
      ⟨rRow7, p 7⟩,
      ⟨rRow6, p 6⟩,
      ⟨rRow5, p 5⟩,
      ⟨rRow4, p 4⟩,
      ⟨rRow3, p 3⟩,
      ⟨rRow2, p 2⟩,
      ⟨rRow1, p 1⟩,
      ⟨rRow0, p 0⟩] : List (View.Piece (Elt F) S32x8192 .f32)), y ∈ pc.1.set :=
  View.cover_of_tiled (s := S32x8192) _ (S1x8192.size : Fin S32x8192.rank → Nat) (by rfl) y

end Cert.Kernel.Body

end
-- ==== Proof.BodyBits.lean ====
/-
  The distance kernel's body, as a triple.

  Given the two rotated-head blocks and one entity tile in its three input buffers, the body runs to the end,
  leaves the three inputs as they were, and leaves the output tile at `outTile`: the 32 row stores, each row `b`
  holding the value `rowPay … b` computed from the inputs. The output buffer's earlier contents are read (a
  load precedes each store) and never used, so they may be anything.
-/
import proofs.«405154_j39573828665596_1_alg».proof.Proof.BodyDefsBits
import proofs.«405154_j39573828665596_1_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole buffers: the inputs at `x0`, `x1`, `x2`, the output at anything. It ends with the inputs
    unchanged and the output at `outTile x0 x1 x2`. -/
theorem sound_kernel (c : Dev nD) (E : Set ℕ) (i : grid0.Coords)
    (arg1 : Memref sig .tc .vmem S32x64 .f32) (harg1 : arg1.IsWhole) (arg2 : Memref sig .tc .vmem S32x64 .f32) (harg2 : arg2.IsWhole)
    (arg3 : Memref sig .tc .vmem S8192x128 .f32) (harg3 : arg3.IsWhole) (arg4 : Memref sig .tc .vmem S32x8192 .f32) (harg4 : arg4.IsWhole)
    (x0 : Vec F S32x64 .f32) (x1 : Vec F S32x64 .f32) (x2 : Vec F S8192x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outTile x0 x1 x2)) -∗ K ⟨⟩))
      ⊢ wp frame (wpE (defs₀ (F := F)) Variants.none c none) E (cc0__rotate_dist_kernel i arg1 harg1 arg2 harg2 arg3 harg3 arg4 harg4) K := by
  simp only [cc0__rotate_dist_kernel_eq_skeleton]; unfold cc0__rotate_dist_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  exact View.read_writes_eq_canon _ _ _
    (cover_rows (rowPay (arg1.view.read (Elt F) f0) (arg2.view.read (Elt F) f1) (arg3.view.read (Elt F) f2)))

end Cert.Kernel.Body

end
-- ==== Proof.FrameBits.lean ====
/-
  The word-level program's frame: from any memory with zero counters, every weakly fair run of @main ends,
  nothing faults, and the three argument arrays are left as they were.

  @main is five stretches of host operations, none of which writes an argument array, followed by one
  pipelined region on a grid of 13 points over four windows: the two rotated-head blocks (fetched once, read
  at every point), the entity table in blocks of 8192 rows whose last block overhangs the table, and the
  output in blocks of 8192 columns whose last block is cut likewise. Because the cut fetch leaves the tail of
  the entity buffer at words nothing names, the proof data constrain what the body leaves in each staging
  buffer instead of naming it: the two head blocks are left as found, and of the entity tile and the output
  tile nothing is said. The body's triple holds whatever the three input buffers contain, so the body
  obligation is that triple with its post weakened to "some contents". The run then leaves every input
  window's array at its entry contents and every buffer that bypasses the region as the region found it; the
  entity table is an input window's array, and the other two arguments bypass the region.
-/
import proofs.«405154_j39573828665596_1_alg».proof.Proof.BodyBits
import Idealize.ShloMosaic.Lib.Pipeline.Dat
import Idealize.ShloMosaic.Lib.Pipeline.Kit
import Idealize.ShloMosaic.Lib.Pipeline.Frame
import Idealize.ShloMosaic.PureOps.BitExact

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data, per core: the windows' arrays as the region finds them; a head block is left as found, of
    the entity tile and of the output tile nothing is asked; the invariant is the class's (the scoped rest and
    the generator register, untouched); nothing owed; full shares. -/
def rdats (c : Dev nD) : RDat τ (Elt F) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ _ _ => True
    | ⟨3, _⟩ => fun _ _ _ => True
  Φ _ := Pipeline.ΦA spec0 c
  q _ := fullShare
  owed _ := 0

/-- The proof data's arrays are the region-entry contents. -/
theorem A_eq (c : Dev nD) (w : Fin cfg0.W) : (rdats m c).A w = V m c (Pipeline.arrRef spec0 w) := by
  dsimp only [rdats]

/-- What is asked of what the body leaves, window by window. -/
theorem after0_0 (c : Dev nD) (t : Fin cfg0.N) (Y X : (cfg0.win 0).block.Idx → Elt F (cfg0.win 0).elt) :
    (rdats m c).after 0 t Y X = (X = Y) := by dsimp only [rdats]
theorem after0_1 (c : Dev nD) (t : Fin cfg0.N) (Y X : (cfg0.win 1).block.Idx → Elt F (cfg0.win 1).elt) :
    (rdats m c).after 1 t Y X = (X = Y) := by dsimp only [rdats]
theorem after0_2 (c : Dev nD) (t : Fin cfg0.N) (Y X : (cfg0.win 2).block.Idx → Elt F (cfg0.win 2).elt) :
    (rdats m c).after 2 t Y X = True := by dsimp only [rdats]
theorem after0_3 (c : Dev nD) (t : Fin cfg0.N) (Y X : (cfg0.win 3).block.Idx → Elt F (cfg0.win 3).elt) :
    (rdats m c).after 3 t Y X = True := by dsimp only [rdats]

/-! ## The body obligation, at a generic point -/

/-- What the body is called with at point `t`: the invariant, what the core owes, and each window's current
    staging buffer at the contents `Y w` handed to it, -/
def bodyPre (c : Dev nD) (t : Fin cfg0.N) (Y : (w : Fin cfg0.W) → (cfg0.win w).block.Idx → Elt F (cfg0.win w).elt) : sProp 𝕄 :=
  iprop((rdats m c).Φ t.castSucc ∗ (rdats m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3))

/-- and what it returns: each buffer at some contents in the window's relation to what was handed over. -/
def bodyPost (c : Dev nD) (t : Fin cfg0.N) (Y : (w : Fin cfg0.W) → (cfg0.win w).block.Idx → Elt F (cfg0.win w).elt) : sProp 𝕄 :=
  iprop((rdats m c).Φ t.succ ∗ (rdats m c).owesAt () t.succ
    ∗ (∃ X, ⌜(rdats m c).after 0 t (Y 0) X⌝ ∗ owns (c : Thread nD τ) (st0_0 t) fullShare X)
    ∗ (∃ X, ⌜(rdats m c).after 1 t (Y 1) X⌝ ∗ owns (c : Thread nD τ) (st0_1 t) fullShare X)
    ∗ (∃ X, ⌜(rdats m c).after 2 t (Y 2) X⌝ ∗ owns (c : Thread nD τ) (st0_2 t) fullShare X)
    ∗ (∃ X, ⌜(rdats m c).after 3 t (Y 3) X⌝ ∗ owns (c : Thread nD τ) (st0_3 t) fullShare X))

/-- The body at any point, whatever its buffers hold: the body's triple applies to the contents handed over; it
    returns the three inputs as they were and the output at some contents; the invariant and the core's
    `owes` pass through unread. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdats m c).Φ t.succ = (rdats m c).Φ t.castSucc from rfl,
    show (rdats m c).owesAt () t.succ = (rdats m c).owesAt () t.castSucc from rfl]
  simp only [after0_0, after0_1, after0_2, after0_3]
  iintro ⟨HΦ, Ho, H0, H1, H2, H3⟩
  iapply (sound_kernel c Set.univ (grid0.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; rfl
    iexact H0
  isplitl [H1]
  · iexists (Y 1); isplitr; · ipureintro; rfl
    iexact H1
  isplitl [H2]
  · iexists (Y 2); isplitr; · ipureintro; trivial
    iexact H2
  · iexists _; isplitr; · ipureintro; trivial
    iexact H3

/-- The library's body obligation of the relational data, at every point: nothing of what the buffers may hold
    is used. -/
theorem body_obligation (c : Dev nD) : (rdats (F := F) m c).BodyObligation (defs₀ (F := F)) Variants.none () Set.univ := fun t Y _ => by
  rw [bigSep_W0, bigSep_W0]
  exact sound_body m c t Y

/-! ## The run and the frame -/

set_option backward.isDefEq.respectTransparency.types false in
/-- At the compiled mesh, for any values, from any memory with zero counters: every weakly fair execution of
    @main on the TensorCores terminates, every window's array ends at contents it may hold after the
    write-backs (an input's: its entry contents), and every other unscoped buffer as the region found it. -/
theorem run_main : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := body_obligation m) (hshare := fun c => (rdats m c).share_full fun _ => rfl)
    (howed := fun _ _ => rfl) (V := V m) (hmain := hmain m Variants.none) (hA := A_eq m) (hΦ := fun _ _ => rfl)

/-- The frame at any instance: the entity table is input window 2's array, so it ends at its entry contents,
    which no host operation before the region wrote; the other two arguments are staged by no window and end
    as the region found them, likewise unwritten before it. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((A_eq m c 2).trans (V_main_arg1 m c)),
      ((h c).2 main_arg2 (Pipeline.mem_restRefs_of main_arg2 (by decide) (by decide))).trans (V_main_arg2 m c)⟩) (run_main m ρ)

end Cert.Kernel.Body

namespace Cert.Kernel.Body

open Cert.Kernel Cert.Kernel.Gen Idealize.ShloMosaic Idealize.ShloMosaic.TcCoe Idealize.SL.Sem

/-- The frame of the word-level program. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_any m ρ

end Cert.Kernel.Body

end
-- ==== Proof.Spec.lean ====
/-
  The RotatE retrieval score, as one function on the extended reals.

  A query row `b` carries a rotated head embedding with real part `re b ·` and imaginary part `im b ·`
  (64 complex components each). An entity row `e` of an `n × 128` table carries its real part in columns
  0‥63 and its imaginary part in columns 64‥127. Component `k` of the complex difference has modulus
  `√((re b k − ent e k)² + (im b k − ent e (64 + k))²)`, and the score is `12` minus the sum of the 64 moduli.
  Both programs compute this; the table's row count `n` is a parameter so that the same function reads a block
  of 8192 rows and the whole table of 100000.
-/
import Idealize.ShloMosaic.PureOps.Ideal
import Idealize.ShloMosaic.Lib.ValueIdx

noncomputable section

open scoped BigOperators

namespace Cert.RotDist

open Idealize.ShloMosaic Idealize.ShloMosaic.ValueIdx

/-- Column of the real part of component `k` in a 128-wide entity row. -/
def lo (k : Fin 64) : Fin 128 := ⟨k.val, by have := k.isLt; omega⟩
/-- Column of the imaginary part of component `k` in a 128-wide entity row. -/
def hi (k : Fin 64) : Fin 128 := ⟨64 + k.val, by have := k.isLt; omega⟩

/-- The modulus of component `k` of (rotated head `b`) − (entity `e`). -/
def modAt {n : Nat} (re im : (⟨2, ![32, 64]⟩ : Shape).Idx → EReal) (ent : (⟨2, ![n, 128]⟩ : Shape).Idx → EReal)
    (b : Fin 32) (e : Fin n) (k : Fin 64) : EReal :=
  Ideal.sqrt ((re (ix2 b k) - ent (ix2 e (lo k))) * (re (ix2 b k) - ent (ix2 e (lo k)))
    + (im (ix2 b k) - ent (ix2 e (hi k))) * (im (ix2 b k) - ent (ix2 e (hi k))))

/-- The score of query row `b` against entity row `e`: the margin 12 less the summed moduli. -/
def score {n : Nat} (re im : (⟨2, ![32, 64]⟩ : Shape).Idx → EReal) (ent : (⟨2, ![n, 128]⟩ : Shape).Idx → EReal)
    (b : Fin 32) (e : Fin n) : EReal :=
  Ideal.ofBits .f32 0x41400000#32 - ∑ k : Fin 64, modAt re im ent b e k

end Cert.RotDist

end
-- ==== Proof.BodyDefs.lean ====
/-
  What the distance kernel's body leaves in its output tile, as a term.

  At one grid point the body holds the two rotated-head blocks `x0` (real parts) and `x1` (imaginary parts),
  each 32 × 64, and one tile `x2` of 8192 entity rows, 128 wide. It loads all three whole, splits the tile
  into its real half (columns 0‥63) and imaginary half (columns 64‥127), and for each of the 32 query rows `b`
  stores one row of 8192 scores into row `b` of the 32 × 8192 output tile. `rowPay x0 x1 x2 b` is the
  value stored into row `b`, written over the program's own payload terms; `outTile` is the tile after the
  32 stores: the canonical contents of the 32 row pieces, which tile the buffer.
-/
import proofs.«405154_j39573828665596_1_alg».proof.Proof.Gen.KernelIdeal.Skeleton
import Idealize.ShloMosaic.Lib.Pipeline.FrameBody
import Idealize.ShloMosaic.Lib.Writes

set_option maxRecDepth 16384

noncomputable section

namespace Cert.KernelIdeal.Body

open Cert.KernelIdeal Cert.KernelIdeal.Gen
open Idealize.ShloMosaic Idealize.SL.Sem

variable {F : FTy → Type} [FloatOps F]

/-- The whole entity tile and the whole head block, as the rectangles the body loads them through. -/
abbrev rEnt : Rect S8192x128 := Rect.unit (s := S8192x128) ![0, 0] S8192x128.size inb_S8192x128_S8192x128_0_0
abbrev rHead : Rect S32x64 := Rect.unit (s := S32x64) ![0, 0] S32x64.size inb_S32x64_S32x64_0_0

/-- Row `b` of the output tile: the rectangle of the `b`-th store. -/
abbrev rRow0 : Rect S32x8192 := Rect.unit (s := S32x8192) ![0, 0] S1x8192.size inb_S32x8192_S1x8192_0_0
abbrev rRow1 : Rect S32x8192 := Rect.unit (s := S32x8192) ![1, 0] S1x8192.size inb_S32x8192_S1x8192_1_0
abbrev rRow2 : Rect S32x8192 := Rect.unit (s := S32x8192) ![2, 0] S1x8192.size inb_S32x8192_S1x8192_2_0
abbrev rRow3 : Rect S32x8192 := Rect.unit (s := S32x8192) ![3, 0] S1x8192.size inb_S32x8192_S1x8192_3_0
abbrev rRow4 : Rect S32x8192 := Rect.unit (s := S32x8192) ![4, 0] S1x8192.size inb_S32x8192_S1x8192_4_0
abbrev rRow5 : Rect S32x8192 := Rect.unit (s := S32x8192) ![5, 0] S1x8192.size inb_S32x8192_S1x8192_5_0
abbrev rRow6 : Rect S32x8192 := Rect.unit (s := S32x8192) ![6, 0] S1x8192.size inb_S32x8192_S1x8192_6_0
abbrev rRow7 : Rect S32x8192 := Rect.unit (s := S32x8192) ![7, 0] S1x8192.size inb_S32x8192_S1x8192_7_0
abbrev rRow8 : Rect S32x8192 := Rect.unit (s := S32x8192) ![8, 0] S1x8192.size inb_S32x8192_S1x8192_8_0
abbrev rRow9 : Rect S32x8192 := Rect.unit (s := S32x8192) ![9, 0] S1x8192.size inb_S32x8192_S1x8192_9_0
abbrev rRow10 : Rect S32x8192 := Rect.unit (s := S32x8192) ![10, 0] S1x8192.size inb_S32x8192_S1x8192_10_0
abbrev rRow11 : Rect S32x8192 := Rect.unit (s := S32x8192) ![11, 0] S1x8192.size inb_S32x8192_S1x8192_11_0
abbrev rRow12 : Rect S32x8192 := Rect.unit (s := S32x8192) ![12, 0] S1x8192.size inb_S32x8192_S1x8192_12_0
abbrev rRow13 : Rect S32x8192 := Rect.unit (s := S32x8192) ![13, 0] S1x8192.size inb_S32x8192_S1x8192_13_0
abbrev rRow14 : Rect S32x8192 := Rect.unit (s := S32x8192) ![14, 0] S1x8192.size inb_S32x8192_S1x8192_14_0
abbrev rRow15 : Rect S32x8192 := Rect.unit (s := S32x8192) ![15, 0] S1x8192.size inb_S32x8192_S1x8192_15_0
abbrev rRow16 : Rect S32x8192 := Rect.unit (s := S32x8192) ![16, 0] S1x8192.size inb_S32x8192_S1x8192_16_0
abbrev rRow17 : Rect S32x8192 := Rect.unit (s := S32x8192) ![17, 0] S1x8192.size inb_S32x8192_S1x8192_17_0
abbrev rRow18 : Rect S32x8192 := Rect.unit (s := S32x8192) ![18, 0] S1x8192.size inb_S32x8192_S1x8192_18_0
abbrev rRow19 : Rect S32x8192 := Rect.unit (s := S32x8192) ![19, 0] S1x8192.size inb_S32x8192_S1x8192_19_0
abbrev rRow20 : Rect S32x8192 := Rect.unit (s := S32x8192) ![20, 0] S1x8192.size inb_S32x8192_S1x8192_20_0
abbrev rRow21 : Rect S32x8192 := Rect.unit (s := S32x8192) ![21, 0] S1x8192.size inb_S32x8192_S1x8192_21_0
abbrev rRow22 : Rect S32x8192 := Rect.unit (s := S32x8192) ![22, 0] S1x8192.size inb_S32x8192_S1x8192_22_0
abbrev rRow23 : Rect S32x8192 := Rect.unit (s := S32x8192) ![23, 0] S1x8192.size inb_S32x8192_S1x8192_23_0
abbrev rRow24 : Rect S32x8192 := Rect.unit (s := S32x8192) ![24, 0] S1x8192.size inb_S32x8192_S1x8192_24_0
abbrev rRow25 : Rect S32x8192 := Rect.unit (s := S32x8192) ![25, 0] S1x8192.size inb_S32x8192_S1x8192_25_0
abbrev rRow26 : Rect S32x8192 := Rect.unit (s := S32x8192) ![26, 0] S1x8192.size inb_S32x8192_S1x8192_26_0
abbrev rRow27 : Rect S32x8192 := Rect.unit (s := S32x8192) ![27, 0] S1x8192.size inb_S32x8192_S1x8192_27_0
abbrev rRow28 : Rect S32x8192 := Rect.unit (s := S32x8192) ![28, 0] S1x8192.size inb_S32x8192_S1x8192_28_0
abbrev rRow29 : Rect S32x8192 := Rect.unit (s := S32x8192) ![29, 0] S1x8192.size inb_S32x8192_S1x8192_29_0
abbrev rRow30 : Rect S32x8192 := Rect.unit (s := S32x8192) ![30, 0] S1x8192.size inb_S32x8192_S1x8192_30_0
abbrev rRow31 : Rect S32x8192 := Rect.unit (s := S32x8192) ![31, 0] S1x8192.size inb_S32x8192_S1x8192_31_0

/-- The three loads: the entity tile, the heads' real parts, the heads' imaginary parts. -/
abbrev entT (x2 : Vec F S8192x128 .f32) : Vec F S8192x128 .f32 := View.ld x2 rEnt
abbrev hdRe (x0 : Vec F S32x64 .f32) : Vec F S32x64 .f32 := View.ld x0 rHead
abbrev hdIm (x1 : Vec F S32x64 .f32) : Vec F S32x64 .f32 := View.ld x1 rHead

/-- The tile's real half, its imaginary half, and the two head blocks as the body keeps them. -/
abbrev v1 (x2 : Vec F S8192x128 .f32) : FVec F S8192x64 .f32 := k0_pay3 (entT x2)
abbrev v2 (x2 : Vec F S8192x128 .f32) : FVec F S8192x64 .f32 := k0_pay4 (entT x2)
abbrev v4 (x0 : Vec F S32x64 .f32) : FVec F S32x64 .f32 := k0_pay5 (hdRe x0)
abbrev v6 (x1 : Vec F S32x64 .f32) : FVec F S32x64 .f32 := k0_pay6 (hdIm x1)

/-- The value the body stores into row `b` of the output tile (rows 32 and beyond are never stored; the last arm is a filler). -/
def rowPay (x0 x1 : Vec F S32x64 .f32) (x2 : Vec F S8192x128 .f32) : Nat → FVec F S1x8192 .f32
  | 0 => k0_pay7 (entT x2) (hdRe x0) (hdIm x1)
  | 1 => k0_pay9 (k0_pay8 (entT x2) (hdRe x0) (hdIm x1))
  | 2 => k0_pay10 (v1 x2) (v2 x2) (v4 x0) (v6 x1)
  | 3 => k0_pay11 (v1 x2) (v2 x2) (v4 x0) (v6 x1)
  | 4 => k0_pay14 (v1 x2) (v2 x2) (k0_pay12 (v4 x0)) (k0_pay13 (v6 x1))
  | 5 => k0_pay15 (v1 x2) (v2 x2) (v4 x0) (v6 x1)
  | 6 => k0_pay17 (k0_pay16 (v1 x2) (v2 x2) (v4 x0) (v6 x1))
  | 7 => k0_pay18 (v1 x2) (v2 x2) (v4 x0) (v6 x1)
  | 8 => k0_pay19 (v1 x2) (v2 x2) (v4 x0) (v6 x1)
  | 9 => k0_pay21 (v1 x2) (v2 x2) (v6 x1) (k0_pay20 (v4 x0))
  | 10 => k0_pay22 (v1 x2) (v2 x2) (v4 x0) (v6 x1)
  | 11 => k0_pay25 (k0_pay23 (v2 x2) (v6 x1)) (k0_pay24 (v1 x2) (v4 x0))
  | 12 => k0_pay26 (v1 x2) (v2 x2) (v4 x0) (v6 x1)
  | 13 => k0_pay28 (k0_pay27 (v1 x2) (v2 x2) (v4 x0) (v6 x1))
  | 14 => k0_pay29 (v1 x2) (v2 x2) (v4 x0) (v6 x1)
  | 15 => k0_pay30 (v1 x2) (v2 x2) (v4 x0) (v6 x1)
  | 16 => k0_pay33 (v1 x2) (v2 x2) (k0_pay31 (v4 x0)) (k0_pay32 (v6 x1))
  | 17 => k0_pay34 (v1 x2) (v2 x2) (v4 x0) (v6 x1)
  | 18 => k0_pay36 (k0_pay35 (v1 x2) (v2 x2) (v4 x0) (v6 x1))
  | 19 => k0_pay37 (v1 x2) (v2 x2) (v4 x0) (v6 x1)
  | 20 => k0_pay38 (v1 x2) (v2 x2) (v4 x0) (v6 x1)
  | 21 => k0_pay40 (v1 x2) (v2 x2) (v6 x1) (k0_pay39 (v4 x0))
  | 22 => k0_pay41 (v1 x2) (v2 x2) (v4 x0) (v6 x1)
  | 23 => k0_pay44 (k0_pay42 (v2 x2) (v6 x1)) (k0_pay43 (v1 x2) (v4 x0))
  | 24 => k0_pay45 (v1 x2) (v2 x2) (v4 x0) (v6 x1)
  | 25 => k0_pay47 (k0_pay46 (v1 x2) (v2 x2) (v4 x0) (v6 x1))
  | 26 => k0_pay48 (v1 x2) (v2 x2) (v4 x0) (v6 x1)
  | 27 => k0_pay49 (v1 x2) (v2 x2) (v4 x0) (v6 x1)
  | 28 => k0_pay52 (v1 x2) (v2 x2) (k0_pay50 (v4 x0)) (k0_pay51 (v6 x1))
  | 29 => k0_pay53 (v1 x2) (v2 x2) (v4 x0) (v6 x1)
  | 30 => k0_pay1 (k0_pay54 (v1 x2) (v2 x2) (v4 x0) (v6 x1))
  | 31 => k0_pay2 (v1 x2) (v2 x2) (v4 x0) (v6 x1)
  | _ => k0_pay2 (v1 x2) (v2 x2) (v4 x0) (v6 x1)

/-- The output tile after the body: the 32 row stores, the last one first. -/
def outTile (x0 x1 : Vec F S32x64 .f32) (x2 : Vec F S8192x128 .f32) : Vec F S32x8192 .f32 :=
  View.canon [⟨rRow31, rowPay x0 x1 x2 31⟩,
    ⟨rRow30, rowPay x0 x1 x2 30⟩,
    ⟨rRow29, rowPay x0 x1 x2 29⟩,
    ⟨rRow28, rowPay x0 x1 x2 28⟩,
    ⟨rRow27, rowPay x0 x1 x2 27⟩,
    ⟨rRow26, rowPay x0 x1 x2 26⟩,
    ⟨rRow25, rowPay x0 x1 x2 25⟩,
    ⟨rRow24, rowPay x0 x1 x2 24⟩,
    ⟨rRow23, rowPay x0 x1 x2 23⟩,
    ⟨rRow22, rowPay x0 x1 x2 22⟩,
    ⟨rRow21, rowPay x0 x1 x2 21⟩,
    ⟨rRow20, rowPay x0 x1 x2 20⟩,
    ⟨rRow19, rowPay x0 x1 x2 19⟩,
    ⟨rRow18, rowPay x0 x1 x2 18⟩,
    ⟨rRow17, rowPay x0 x1 x2 17⟩,
    ⟨rRow16, rowPay x0 x1 x2 16⟩,
    ⟨rRow15, rowPay x0 x1 x2 15⟩,
    ⟨rRow14, rowPay x0 x1 x2 14⟩,
    ⟨rRow13, rowPay x0 x1 x2 13⟩,
    ⟨rRow12, rowPay x0 x1 x2 12⟩,
    ⟨rRow11, rowPay x0 x1 x2 11⟩,
    ⟨rRow10, rowPay x0 x1 x2 10⟩,
    ⟨rRow9, rowPay x0 x1 x2 9⟩,
    ⟨rRow8, rowPay x0 x1 x2 8⟩,
    ⟨rRow7, rowPay x0 x1 x2 7⟩,
    ⟨rRow6, rowPay x0 x1 x2 6⟩,
    ⟨rRow5, rowPay x0 x1 x2 5⟩,
    ⟨rRow4, rowPay x0 x1 x2 4⟩,
    ⟨rRow3, rowPay x0 x1 x2 3⟩,
    ⟨rRow2, rowPay x0 x1 x2 2⟩,
    ⟨rRow1, rowPay x0 x1 x2 1⟩,
    ⟨rRow0, rowPay x0 x1 x2 0⟩]

/-- The 32 rows tile the buffer, so every index lies under one of them. -/
theorem cover_rows (p : Nat → FVec F S1x8192 .f32) (y : S32x8192.Idx) :
    ∃ pc ∈ ([⟨rRow31, p 31⟩,
      ⟨rRow30, p 30⟩,
      ⟨rRow29, p 29⟩,
      ⟨rRow28, p 28⟩,
      ⟨rRow27, p 27⟩,
      ⟨rRow26, p 26⟩,
      ⟨rRow25, p 25⟩,
      ⟨rRow24, p 24⟩,
      ⟨rRow23, p 23⟩,
      ⟨rRow22, p 22⟩,
      ⟨rRow21, p 21⟩,
      ⟨rRow20, p 20⟩,
      ⟨rRow19, p 19⟩,
      ⟨rRow18, p 18⟩,
      ⟨rRow17, p 17⟩,
      ⟨rRow16, p 16⟩,
      ⟨rRow15, p 15⟩,
      ⟨rRow14, p 14⟩,
      ⟨rRow13, p 13⟩,
      ⟨rRow12, p 12⟩,
      ⟨rRow11, p 11⟩,
      ⟨rRow10, p 10⟩,
      ⟨rRow9, p 9⟩,
      ⟨rRow8, p 8⟩,
      ⟨rRow7, p 7⟩,
      ⟨rRow6, p 6⟩,
      ⟨rRow5, p 5⟩,
      ⟨rRow4, p 4⟩,
      ⟨rRow3, p 3⟩,
      ⟨rRow2, p 2⟩,
      ⟨rRow1, p 1⟩,
      ⟨rRow0, p 0⟩] : List (View.Piece (Elt F) S32x8192 .f32)), y ∈ pc.1.set :=
  View.cover_of_tiled (s := S32x8192) _ (S1x8192.size : Fin S32x8192.rank → Nat) (by rfl) y

end Cert.KernelIdeal.Body

end
-- ==== Proof.Body.lean ====
/-
  The distance kernel's body, as a triple.

  Given the two rotated-head blocks and one entity tile in its three input buffers, the body runs to the end,
  leaves the three inputs as they were, and leaves the output tile at `outTile`: the 32 row stores, each row `b`
  holding the value `rowPay … b` computed from the inputs. The output buffer's earlier contents are read (a
  load precedes each store) and never used, so they may be anything.
-/
import proofs.«405154_j39573828665596_1_alg».proof.Proof.BodyDefs
import proofs.«405154_j39573828665596_1_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole buffers: the inputs at `x0`, `x1`, `x2`, the output at anything. It ends with the inputs
    unchanged and the output at `outTile x0 x1 x2`. -/
theorem sound_kernel (c : Dev nD) (E : Set ℕ) (i : grid0.Coords)
    (arg1 : Memref sig .tc .vmem S32x64 .f32) (harg1 : arg1.IsWhole) (arg2 : Memref sig .tc .vmem S32x64 .f32) (harg2 : arg2.IsWhole)
    (arg3 : Memref sig .tc .vmem S8192x128 .f32) (harg3 : arg3.IsWhole) (arg4 : Memref sig .tc .vmem S32x8192 .f32) (harg4 : arg4.IsWhole)
    (x0 : Vec F S32x64 .f32) (x1 : Vec F S32x64 .f32) (x2 : Vec F S8192x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outTile x0 x1 x2)) -∗ K ⟨⟩))
      ⊢ wp frame (wpE (defs₀ (F := F)) Variants.none c none) E (cc0__rotate_dist_kernel i arg1 harg1 arg2 harg2 arg3 harg3 arg4 harg4) K := by
  simp only [cc0__rotate_dist_kernel_eq_skeleton]; unfold cc0__rotate_dist_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  exact View.read_writes_eq_canon _ _ _
    (cover_rows (rowPay (arg1.view.read (Elt F) f0) (arg2.view.read (Elt F) f1) (arg3.view.read (Elt F) f2)))

end Cert.KernelIdeal.Body

end
-- ==== Proof.TileData.lean ====
/-
  The proof data of the distance kernel's one pipeline.

  The grid has 13 points; point `t` stages rows 8192·t ‥ of the 100000-row entity table. The last block
  overhangs the table: only its first 1696 rows lie inside, and the transfer that fetches it is cut there, so the
  staging buffer's remaining rows hold words nothing names. The proof data therefore names the entity tile
  only on the rows inside the table (`entBlk`), filled out with a zero word that nothing reads (`entTile`),
  and the output tile as the body's result on that tile: its columns past the table's end are never written back.
  The two head blocks are whole and the same at every point.
-/
import proofs.«405154_j39573828665596_1_alg».proof.Proof.BodyDefs
import proofs.«405154_j39573828665596_1_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window cellOf)

variable {F : FTy → Type} [FloatOps F]

variable (m : (ℓ : Loc nD τ sig) → Buf (Elt F) ℓ)

/-- The entity block at point `t`: the rows of the table the block holds (all 8192, or 1696 at the last point). -/
def entBlk (c : Dev nD) (t : Fin cfg0.N) : (win0_2.xblock (grid0.coords t)).Idx → Elt F .f32 :=
  (win0_2.blk t).view.read (Elt F) (V m c main_arg1)

/-- The entity tile as the proof data names it: the block on the rows inside the table, a zero word past its end. -/
def entTile (c : Dev nD) (t : Fin cfg0.N) : S8192x128.Idx → Elt F .f32 :=
  win0_2.fill (grid0.coords t) (fun _ => Scalar.ofBits .f32 0#32) (entBlk m c t)

/-- The heads' real and imaginary parts: whole blocks, the same at every point. -/
def reBlk (c : Dev nD) (t : Fin cfg0.N) : S32x64.Idx → Elt F .f32 := iblk m c 0 t
def imBlk (c : Dev nD) (t : Fin cfg0.N) : S32x64.Idx → Elt F .f32 := iblk m c 1 t

/-- The proof data on core `c`: the arrays as the region finds them; after the body the head buffers at their
    blocks, the entity buffer at `entTile`, the output buffer at the body's result on those; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => reBlk m c t
    | ⟨1, _⟩ => imBlk m c t
    | ⟨2, _⟩ => entTile m c t
    | ⟨3, _⟩ => outTile (reBlk m c t) (imBlk m c t) (entTile m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats, reBlk]
theorem after_1 (c : Dev nD) (t : Fin cfg0.N) : (dats m 0 c).after 1 t = iblk m c 1 t := by dsimp only [dats, imBlk]
theorem after_2 (c : Dev nD) (t : Fin cfg0.N) : (dats m 0 c).after 2 t = entTile m c t := by dsimp only [dats]
theorem after_3 (c : Dev nD) (t : Fin cfg0.N) :
    (dats m 0 c).after 3 t = outTile (reBlk m c t) (imBlk m c t) (entTile m c t) := by dsimp only [dats]

/-- Each head buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The entity buffer is fetched at every point: it holds the block on the rows inside the table and `d`, any
    words, past its end. -/
theorem before_2 (c : Dev nD) (t : Fin cfg0.N) (d) :
    (dats m 0 c).before 2 t d = win0_2.fill (grid0.coords t) d (entBlk m c t) := by
  unfold Dat.before; rw [if_pos (fetch0_2 t)]; rfl

end Cert.KernelIdeal.Body

end
-- ==== Proof.RunIdeal.lean ====
/-
  The idealized distance kernel's run.

  At each grid point the body finds the two head blocks, and the entity buffer holding the block's rows inside the
  table followed (at the last point) by rows nothing names. It leaves the output tile at its result on exactly
  that buffer. The score in column `e` of the tile reads the entity buffer at row `e` only, and the columns
  written back are those whose row lies inside the table, so the part of the tile that is written back is the
  same whatever the unnamed rows hold (`cut_out_indep`). That is all the pipeline's obligation asks of a window
  whose last block is cut. The run then has the result array at what the library computes from the proof data,
  and every argument unchanged.
-/
import proofs.«405154_j39573828665596_1_alg».proof.Proof.Spec
import proofs.«405154_j39573828665596_1_alg».proof.Proof.Body
import proofs.«405154_j39573828665596_1_alg».proof.Proof.TileData
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The output tile read at an index is the score on the tile: what the body's arithmetic comes to. -/
abbrev TileIsScore : Prop :=
  ∀ (x0 x1 : Vec Ideal S32x64 .f32) (x2 : Vec Ideal S8192x128 .f32) (b : Fin 32) (e : Fin 8192),
    outTile (F := Ideal) x0 x1 x2 (ix2 b e) = Cert.RotDist.score x0 x1 x2 b e

/-- The score against entity row `e` reads the table at row `e` only. -/
theorem score_congr {n : Nat} (re im : (⟨2, ![32, 64]⟩ : Shape).Idx → EReal) (ent ent' : (⟨2, ![n, 128]⟩ : Shape).Idx → EReal)
    (b : Fin 32) (e : Fin n) (h : ∀ col : Fin 128, ent (ix2 e col) = ent' (ix2 e col)) :
    Cert.RotDist.score re im ent b e = Cert.RotDist.score re im ent' b e := by
  unfold Cert.RotDist.score Cert.RotDist.modAt
  simp only [h]

/-- Over the grid: the output block keeps as many columns as the entity block keeps rows, and the entity block
    keeps all 128 columns. -/
theorem kept_sizes : ∀ t : Fin cfg0.N, win0_3.xsize (grid0.coords t) 1 = win0_2.xsize (grid0.coords t) 0
      ∧ win0_2.xsize (grid0.coords t) 1 = 128 :=
  (by decide +kernel : ∀ t : Fin grid0.N, win0_3.xsize (grid0.coords t) 1 = win0_2.xsize (grid0.coords t) 0
      ∧ win0_2.xsize (grid0.coords t) 1 = 128)

/-- The part of the output tile that is written back does not depend on what the entity buffer holds past the
    table's end. -/
theorem cut_out_indep (hout : TileIsScore) (t : Fin cfg0.N) (x0 x1 : Vec Ideal S32x64 .f32)
    (g : (win0_2.xblock (grid0.coords t)).Idx → EReal) (d d' : S8192x128.Idx → EReal) :
    win0_3.cut (grid0.coords t) (outTile (F := Ideal) x0 x1 (win0_2.fill (grid0.coords t) d g))
      = win0_3.cut (grid0.coords t) (outTile (F := Ideal) x0 x1 (win0_2.fill (grid0.coords t) d' g)) := by
  funext j
  show outTile (F := Ideal) x0 x1 _ (win0_3.xinj (grid0.coords t) j) = outTile (F := Ideal) x0 x1 _ (win0_3.xinj (grid0.coords t) j)
  obtain ⟨b, e, hbe⟩ : ∃ (b : Fin 32) (e : Fin 8192), win0_3.xinj (grid0.coords t) j = ix2 b e := ⟨_, _, eq_ix2 _⟩
  have he : e.val < win0_2.xsize (grid0.coords t) 0 := by
    have h1 : e.val = (j 1).val := by
      have := congrFun hbe 1
      exact (congrArg Fin.val this).symm
    have h2 : (j 1).val < win0_3.xsize (grid0.coords t) 1 := (j 1).isLt
    rw [(kept_sizes t).1] at h2
    omega
  rw [hbe, hout, hout]
  refine score_congr _ _ _ _ b e fun col => ?_
  have hm : win0_2.moved (grid0.coords t) (ix2 e col) = true := (win0_2.moved_iff _ _).mpr fun a => by
    match a with
    | ⟨0, _⟩ => exact he
    | ⟨1, _⟩ => show col.val < win0_2.xsize (grid0.coords t) 1; rw [(kept_sizes t).2]; exact col.isLt
  unfold Window.fill
  rw [dif_pos hm, dif_pos hm]

variable (m : (ℓ : Loc nD τ sig) → Buf (Elt Ideal) ℓ) (ρ : Dev nD → PrngReg)

/-- The pipeline's obligation at every point: the head buffers arrive and leave at their blocks; the entity buffer
    arrives holding its block and anything past the table's end, and leaves so; the output buffer leaves at the
    body's result, which on the part written back is the proof data's. -/
theorem body_obligation (hout : TileIsScore) (c : Dev nD) :
    BodyObligationLoose (dats (F := Ideal) m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2]
  iapply (sound_kernel (F := Ideal) c Set.univ (grid0.coords t) _ _ _ _ _ _ _ _ (iblk m c 0 t) (iblk m c 1 t)
    (win0_2.fill (grid0.coords t) d2 (entBlk m c t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · rw [after_0]; iexact H0
  isplitl [H1]
  · rw [after_1]; iexact H1
  isplitl [H2]
  · iexists d2
    rw [after_2]
    have h2 : win0_2.cut (grid0.coords t) (entTile m c t) = entBlk m c t := win0_2.cut_fill _ _ _
    change _ ⊢ owns (c : Thread nD τ) (st0_2 t) fullShare (win0_2.fill (grid0.coords t) d2 (win0_2.cut (grid0.coords t) (entTile m c t)))
    rw [h2]; try iexact H2
  · iexists outTile (F := Ideal) (iblk m c 0 t) (iblk m c 1 t) (win0_2.fill (grid0.coords t) d2 (entBlk m c t))
    rw [after_3]
    have h3 : win0_3.cut (grid0.coords t) (outTile (F := Ideal) (reBlk m c t) (imBlk m c t) (entTile m c t))
        = win0_3.cut (grid0.coords t) (outTile (F := Ideal) (iblk m c 0 t) (iblk m c 1 t) (win0_2.fill (grid0.coords t) d2 (entBlk m c t))) :=
      cut_out_indep hout t (iblk m c 0 t) (iblk m c 1 t) (entBlk m c t) _ d2
    change _ ⊢ owns (c : Thread nD τ) (st0_3 t) fullShare (win0_3.fill (grid0.coords t) _ (win0_3.cut (grid0.coords t) (outTile (F := Ideal) (reBlk m c t) (imBlk m c t) (entTile m c t))))
    rw [h3, win0_3.fill_cut]; try iexact H3

-- the launch theorem's implicit arguments are found by unifying its conclusion with this one, which takes unfolding
-- plain definitions in a metavariable's type
set_option backward.isDefEq.respectTransparency.types false in
/-- Every weakly fair execution of @main terminates; in every final state each array of the pipeline holds what the
    library computes from the proof data, and every other unscoped buffer what the region found. -/
theorem run_main (hout : TileIsScore) :
    θ_run defs (onTc (τ := τ) (main (F := Ideal))) (s₀ m ρ) (Pipeline.FramePost cfgs (dats (F := Ideal) m) 0 (V m)) :=
  Pipeline.θ_run_frame cfgs (dats (F := Ideal) m) (0 : Fin 1) launch0 defs₀ Variants.none m ρ main
    (hbody := fun c => body_obligation m hout c) (hshare := fun c => (dats m 0 c).share_full fun _ => rfl)
    (howed := fun _ _ => rfl) (V := V m) (hmain := hmain m Variants.none) (hA := A_eq m) (hΦ := fun _ _ => rfl)

/-- The run read at the result and the arguments: the result array at the library's final contents of window 3,
    the three arguments as launched. -/
theorem run_result (hout : TileIsScore) :
    θ_run defs (onTc (τ := τ) (main (F := Ideal))) ⟨m, fun _ => 0, ρ⟩ (fun r => ∀ c : Dev nD,
      r.2.mem ((c.tc : Thread nD τ).loc main_v18) = (dats (F := Ideal) m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 3,
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c)⟩)
    (run_main m ρ hout)

end Cert.KernelIdeal.Body

end
-- ==== Proof.TileScore.lean ====
/-
  What the distance kernel's body leaves in its output tile, read at an index, is the RotatE score.

  At one grid point the body holds the rotated heads' real parts `x0` and imaginary parts `x1` (32 × 64 each) and a
  tile `x2` of 8192 entity rows, 128 wide. For query row `b` it takes row `b` of each head block, subtracts from it the
  tile's real half (columns 0‥63) and imaginary half (columns 64‥127), squares, adds, takes square roots, sums the 64
  lanes and subtracts the sum from the margin 12; the 8192 results go into row `b` of the 32 × 8192 output tile.

  `laneSum_apply` reads the lane sum at an entity row as a sum over the 64 components; `headRow_apply`, `entRe_apply`
  and `entIm_apply` read the row extraction and the two column halves at an index. `rowTerm` is the stored row as one
  term and `rowTerm_apply` reads it at an entity as `Cert.RotDist.score`. Each of the 32 stored rows is `rowTerm` at its
  row once its payload terms are unfolded (`row0` … `row31`, gathered in `rowPay_apply`). The 32 row rectangles tile the
  output tile, so its canonical contents are the score function (`out_apply`).
-/
import proofs.«405154_j39573828665596_1_alg».proof.Proof.Spec
import proofs.«405154_j39573828665596_1_alg».proof.Proof.BodyDefs
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.RotDist.Tile

open Idealize.ShloMosaic Idealize.ShloMosaic.ValueIdx Cert.KernelIdeal Cert.KernelIdeal.Gen
open Cert.KernelIdeal.Body

/-- The source index of a lane sum: over result row `e`, lane `k` is entry `(e, k)`. -/
theorem lift_eq (e : Fin 8192) (k : Fin 64) :
    reduces_S8192x64_S8192.lift (ix1 e) k = ix2 e k := by
  funext c
  match c with
  | ⟨0, _⟩ => rfl
  | ⟨1, _⟩ => rfl

/-- The lane sum of the 64 moduli of (one query row `rr + i·ir`) − (entity row `e` of the halves `v1`, `v2`),
    read at `e`: the sum over the lanes `k` of `√((rr k − v1 e k)² + (ir k − v2 e k)²)`. -/
theorem laneSum_apply (v1 v2 : FVec Ideal S8192x64 .f32) (rr ir : FVec Ideal S1x64 .f32)
    (hφ : FKind.Formats .f32) (hacc : (0x00000000#32 : BitVec 32) = FKind.add.neutral .f32 hφ) (e : Fin 8192) :
    multiReduction .add [1] S8192
        (sqrt (addf
          (mulf (subf (broadcastTo S8192x64 rr broadcasts_S1x64_S8192x64) v1)
                (subf (broadcastTo S8192x64 rr broadcasts_S1x64_S8192x64) v1))
          (mulf (subf (broadcastTo S8192x64 ir broadcasts_S1x64_S8192x64) v2)
                (subf (broadcastTo S8192x64 ir broadcasts_S1x64_S8192x64) v2))))
        0x00000000#32 reduces_S8192x64_S8192 hφ hacc (ix1 e)
      = ∑ k : Fin 64, Ideal.sqrt
          ((rr (ix2 (0 : Fin 1) k) - v1 (ix2 e k)) * (rr (ix2 (0 : Fin 1) k) - v1 (ix2 e k))
            + (ir (ix2 (0 : Fin 1) k) - v2 (ix2 e k)) * (ir (ix2 (0 : Fin 1) k) - v2 (ix2 e k))) := by
  refine (Ideal.multiReduction_add_single _ _ reduces_S8192x64_S8192 hφ hacc (ix1 e)).trans ?_
  refine Finset.sum_congr rfl fun k _ => ?_
  rw [lift_eq e k]
  show Ideal.sqrt ((broadcastTo S8192x64 rr broadcasts_S1x64_S8192x64 (ix2 e k) - v1 (ix2 e k))
      * (broadcastTo S8192x64 rr broadcasts_S1x64_S8192x64 (ix2 e k) - v1 (ix2 e k))
    + (broadcastTo S8192x64 ir broadcasts_S1x64_S8192x64 (ix2 e k) - v2 (ix2 e k))
      * (broadcastTo S8192x64 ir broadcasts_S1x64_S8192x64 (ix2 e k) - v2 (ix2 e k))) = _
  rw [broadcastTo_1b_ab_apply rr _ e k, broadcastTo_1b_ab_apply ir _ e k]

/-- Row `b` of a 32 × 64 block, flattened to its 64 lanes and made a one-row matrix again: at lane `k` it is the
    block's entry `(b, k)`. -/
theorem headRow_apply (v : FVec Ideal S32x64 .f32) (b : Fin 32) (h : S32x64.Slices ![b.val, 0] S1x64) (k : Fin 64) :
    shapeCast S1x64 (shapeCast S64 (extractStridedSlice S1x64 ![b.val, 0] v h) shapeCasts_S1x64_S64)
        shapeCasts_S64_S1x64 (ix2 (0 : Fin 1) k) = v (ix2 b k) := by
  rw [shapeCast_a_1a_apply, shapeCast_1a_a_apply]
  exact slice2_axis0_apply b.val v h (0 : Fin 1) k b rfl

/-- The offsets `(0, 0)` are zero on every axis. -/
theorem hz : (![0, 0] : Fin 2 → Nat) = fun _ => 0 := funext fun a => by fin_cases a <;> rfl

/-- The head block the body keeps is the block it loaded, which is the buffer. -/
theorem head_eq (x : Vec Ideal S32x64 .f32) : k0_pay5 (F := Ideal) (View.ld x rHead) = x := by
  unfold k0_pay5
  exact (shapeCast_self _ _).trans (View.ld_unit_zero (S := S32x64) hz _ x)

/-- The entity tile the body loads is the buffer. -/
theorem entT_eq (x2 : Vec Ideal S8192x128 .f32) : entT (F := Ideal) x2 = x2 :=
  View.ld_unit_zero (S := S8192x128) hz _ x2

/-- The tile's real half at `(e, k)` is the tile at column `k`. -/
theorem entRe_apply (x2 : Vec Ideal S8192x128 .f32) (e : Fin 8192) (k : Fin 64) :
    v1 (F := Ideal) x2 (ix2 e k) = x2 (ix2 e (lo k)) := by
  show k0_pay3 (F := Ideal) (entT x2) (ix2 e k) = _
  rw [entT_eq]
  exact slice2_axis1_apply 0 x2 slices_S8192x128_o0_0_S8192x64 e k (lo k) (Nat.zero_add _).symm

/-- The tile's imaginary half at `(e, k)` is the tile at column `64 + k`. -/
theorem entIm_apply (x2 : Vec Ideal S8192x128 .f32) (e : Fin 8192) (k : Fin 64) :
    v2 (F := Ideal) x2 (ix2 e k) = x2 (ix2 e (hi k)) := by
  show k0_pay4 (F := Ideal) (entT x2) (ix2 e k) = _
  rw [entT_eq]
  exact slice2_axis1_apply 64 x2 slices_S8192x128_o0_64_S8192x64 e k (hi k) rfl

/-- The block of imaginary parts the body keeps is the buffer. -/
theorem headIm_eq (x : Vec Ideal S32x64 .f32) : k0_pay6 (F := Ideal) (View.ld x rHead) = x := by
  unfold k0_pay6
  exact (shapeCast_self _ _).trans (View.ld_unit_zero (S := S32x64) hz _ x)

/-- The value the body stores into output row `b`, in one piece: row `b` of the two head blocks against the tile's two
    halves, the 64 moduli summed along the lanes, the sum taken from the margin `12`, the 8192 results as one row. -/
def rowTerm (v1 v2 : FVec Ideal S8192x64 .f32) (v4 v6 : FVec Ideal S32x64 .f32) (b : Nat)
    (h : S32x64.Slices ![b, 0] S1x64) : FVec Ideal S1x8192 .f32 :=
  shapeCast S1x8192
    (subf (broadcast S8192 (Scalar.ofBits .f32 0x41400000#32 : Ideal .f32))
      (multiReduction .add [1] S8192
        (sqrt (addf
          (mulf
            (subf (broadcastTo S8192x64 (shapeCast S1x64 (shapeCast S64 (extractStridedSlice S1x64 ![b, 0] v4 h)
              shapeCasts_S1x64_S64) shapeCasts_S64_S1x64) broadcasts_S1x64_S8192x64) v1)
            (subf (broadcastTo S8192x64 (shapeCast S1x64 (shapeCast S64 (extractStridedSlice S1x64 ![b, 0] v4 h)
              shapeCasts_S1x64_S64) shapeCasts_S64_S1x64) broadcasts_S1x64_S8192x64) v1))
          (mulf
            (subf (broadcastTo S8192x64 (shapeCast S1x64 (shapeCast S64 (extractStridedSlice S1x64 ![b, 0] v6 h)
              shapeCasts_S1x64_S64) shapeCasts_S64_S1x64) broadcasts_S1x64_S8192x64) v2)
            (subf (broadcastTo S8192x64 (shapeCast S1x64 (shapeCast S64 (extractStridedSlice S1x64 ![b, 0] v6 h)
              shapeCasts_S1x64_S64) shapeCasts_S64_S1x64) broadcasts_S1x64_S8192x64) v2))))
        0x00000000#32 reduces_S8192x64_S8192 (.inl rfl) rfl))
    shapeCasts_S8192_S1x8192

/-- That value at entity `e` is the score of query row `b` against entity row `e` of the tile. -/
theorem rowTerm_apply (x0 x1 : Vec Ideal S32x64 .f32) (x2 : Vec Ideal S8192x128 .f32) (b : Fin 32)
    (h : S32x64.Slices ![b.val, 0] S1x64) (e : Fin 8192) :
    rowTerm (v1 x2) (v2 x2) (v4 x0) (v6 x1) b.val h (ix2 (0 : Fin 1) e) = Cert.RotDist.score x0 x1 x2 b e := by
  unfold rowTerm
  rw [shapeCast_a_1a_apply]
  refine (congrArg (fun s : EReal => Ideal.ofBits .f32 0x41400000#32 - s)
    (laneSum_apply (v1 x2) (v2 x2) _ _ (.inl rfl) rfl e)).trans ?_
  unfold Cert.RotDist.score Cert.RotDist.modAt
  refine congrArg (fun s : EReal => Ideal.ofBits .f32 0x41400000#32 - s) (Finset.sum_congr rfl fun k _ => ?_)
  rw [headRow_apply (v4 x0) b h k, headRow_apply (v6 x1) b h k, entRe_apply, entIm_apply,
    show v4 (F := Ideal) x0 = x0 from head_eq x0, show v6 (F := Ideal) x1 = x1 from headIm_eq x1]

/-! The 32 stored rows. A row's arithmetic is spelt as one payload term or as a few nested ones; unfolded, each is
`rowTerm` at its row. -/

/-- Output row 0 (the loads' payloads inside one payload). -/
theorem row0 (x0 x1 : Vec Ideal S32x64 .f32) (x2 : Vec Ideal S8192x128 .f32) (e : Fin 8192) :
    rowPay (F := Ideal) x0 x1 x2 0 (ix2 (0 : Fin 1) e) = Cert.RotDist.score x0 x1 x2 ⟨0, by omega⟩ e :=
  rowTerm_apply x0 x1 x2 ⟨0, by omega⟩ slices_S32x64_o0_0_S1x64 e

/-- Output row 1 (the last cast split off). -/
theorem row1 (x0 x1 : Vec Ideal S32x64 .f32) (x2 : Vec Ideal S8192x128 .f32) (e : Fin 8192) :
    rowPay (F := Ideal) x0 x1 x2 1 (ix2 (0 : Fin 1) e) = Cert.RotDist.score x0 x1 x2 ⟨1, by omega⟩ e :=
  rowTerm_apply x0 x1 x2 ⟨1, by omega⟩ slices_S32x64_o1_0_S1x64 e

/-- Output row 2 (one payload over the halves and the head blocks). -/
theorem row2 (x0 x1 : Vec Ideal S32x64 .f32) (x2 : Vec Ideal S8192x128 .f32) (e : Fin 8192) :
    rowPay (F := Ideal) x0 x1 x2 2 (ix2 (0 : Fin 1) e) = Cert.RotDist.score x0 x1 x2 ⟨2, by omega⟩ e :=
  rowTerm_apply x0 x1 x2 ⟨2, by omega⟩ slices_S32x64_o2_0_S1x64 e

/-- Output row 3 (one payload over the halves and the head blocks). -/
theorem row3 (x0 x1 : Vec Ideal S32x64 .f32) (x2 : Vec Ideal S8192x128 .f32) (e : Fin 8192) :
    rowPay (F := Ideal) x0 x1 x2 3 (ix2 (0 : Fin 1) e) = Cert.RotDist.score x0 x1 x2 ⟨3, by omega⟩ e :=
  rowTerm_apply x0 x1 x2 ⟨3, by omega⟩ slices_S32x64_o3_0_S1x64 e

/-- Output row 4 (the two query rows split off). -/
theorem row4 (x0 x1 : Vec Ideal S32x64 .f32) (x2 : Vec Ideal S8192x128 .f32) (e : Fin 8192) :
    rowPay (F := Ideal) x0 x1 x2 4 (ix2 (0 : Fin 1) e) = Cert.RotDist.score x0 x1 x2 ⟨4, by omega⟩ e :=
  rowTerm_apply x0 x1 x2 ⟨4, by omega⟩ slices_S32x64_o4_0_S1x64 e

/-- Output row 5 (one payload over the halves and the head blocks). -/
theorem row5 (x0 x1 : Vec Ideal S32x64 .f32) (x2 : Vec Ideal S8192x128 .f32) (e : Fin 8192) :
    rowPay (F := Ideal) x0 x1 x2 5 (ix2 (0 : Fin 1) e) = Cert.RotDist.score x0 x1 x2 ⟨5, by omega⟩ e :=
  rowTerm_apply x0 x1 x2 ⟨5, by omega⟩ slices_S32x64_o5_0_S1x64 e

/-- Output row 6 (cut after the lane sum). -/
theorem row6 (x0 x1 : Vec Ideal S32x64 .f32) (x2 : Vec Ideal S8192x128 .f32) (e : Fin 8192) :
    rowPay (F := Ideal) x0 x1 x2 6 (ix2 (0 : Fin 1) e) = Cert.RotDist.score x0 x1 x2 ⟨6, by omega⟩ e :=
  rowTerm_apply x0 x1 x2 ⟨6, by omega⟩ slices_S32x64_o6_0_S1x64 e

/-- Output row 7 (one payload over the halves and the head blocks). -/
theorem row7 (x0 x1 : Vec Ideal S32x64 .f32) (x2 : Vec Ideal S8192x128 .f32) (e : Fin 8192) :
    rowPay (F := Ideal) x0 x1 x2 7 (ix2 (0 : Fin 1) e) = Cert.RotDist.score x0 x1 x2 ⟨7, by omega⟩ e :=
  rowTerm_apply x0 x1 x2 ⟨7, by omega⟩ slices_S32x64_o7_0_S1x64 e

/-- Output row 8 (one payload over the halves and the head blocks). -/
theorem row8 (x0 x1 : Vec Ideal S32x64 .f32) (x2 : Vec Ideal S8192x128 .f32) (e : Fin 8192) :
    rowPay (F := Ideal) x0 x1 x2 8 (ix2 (0 : Fin 1) e) = Cert.RotDist.score x0 x1 x2 ⟨8, by omega⟩ e :=
  rowTerm_apply x0 x1 x2 ⟨8, by omega⟩ slices_S32x64_o8_0_S1x64 e

/-- Output row 9 (the real row's extraction split off). -/
theorem row9 (x0 x1 : Vec Ideal S32x64 .f32) (x2 : Vec Ideal S8192x128 .f32) (e : Fin 8192) :
    rowPay (F := Ideal) x0 x1 x2 9 (ix2 (0 : Fin 1) e) = Cert.RotDist.score x0 x1 x2 ⟨9, by omega⟩ e :=
  rowTerm_apply x0 x1 x2 ⟨9, by omega⟩ slices_S32x64_o9_0_S1x64 e

/-- Output row 10 (one payload over the halves and the head blocks). -/
theorem row10 (x0 x1 : Vec Ideal S32x64 .f32) (x2 : Vec Ideal S8192x128 .f32) (e : Fin 8192) :
    rowPay (F := Ideal) x0 x1 x2 10 (ix2 (0 : Fin 1) e) = Cert.RotDist.score x0 x1 x2 ⟨10, by omega⟩ e :=
  rowTerm_apply x0 x1 x2 ⟨10, by omega⟩ slices_S32x64_o10_0_S1x64 e

/-- Output row 11 (the imaginary difference and the real square split off). -/
theorem row11 (x0 x1 : Vec Ideal S32x64 .f32) (x2 : Vec Ideal S8192x128 .f32) (e : Fin 8192) :
    rowPay (F := Ideal) x0 x1 x2 11 (ix2 (0 : Fin 1) e) = Cert.RotDist.score x0 x1 x2 ⟨11, by omega⟩ e :=
  rowTerm_apply x0 x1 x2 ⟨11, by omega⟩ slices_S32x64_o11_0_S1x64 e

/-- Output row 12 (one payload over the halves and the head blocks). -/
theorem row12 (x0 x1 : Vec Ideal S32x64 .f32) (x2 : Vec Ideal S8192x128 .f32) (e : Fin 8192) :
    rowPay (F := Ideal) x0 x1 x2 12 (ix2 (0 : Fin 1) e) = Cert.RotDist.score x0 x1 x2 ⟨12, by omega⟩ e :=
  rowTerm_apply x0 x1 x2 ⟨12, by omega⟩ slices_S32x64_o12_0_S1x64 e

/-- Output row 13 (the last cast split off). -/
theorem row13 (x0 x1 : Vec Ideal S32x64 .f32) (x2 : Vec Ideal S8192x128 .f32) (e : Fin 8192) :
    rowPay (F := Ideal) x0 x1 x2 13 (ix2 (0 : Fin 1) e) = Cert.RotDist.score x0 x1 x2 ⟨13, by omega⟩ e :=
  rowTerm_apply x0 x1 x2 ⟨13, by omega⟩ slices_S32x64_o13_0_S1x64 e

/-- Output row 14 (one payload over the halves and the head blocks). -/
theorem row14 (x0 x1 : Vec Ideal S32x64 .f32) (x2 : Vec Ideal S8192x128 .f32) (e : Fin 8192) :
    rowPay (F := Ideal) x0 x1 x2 14 (ix2 (0 : Fin 1) e) = Cert.RotDist.score x0 x1 x2 ⟨14, by omega⟩ e :=
  rowTerm_apply x0 x1 x2 ⟨14, by omega⟩ slices_S32x64_o14_0_S1x64 e

/-- Output row 15 (one payload over the halves and the head blocks). -/
theorem row15 (x0 x1 : Vec Ideal S32x64 .f32) (x2 : Vec Ideal S8192x128 .f32) (e : Fin 8192) :
    rowPay (F := Ideal) x0 x1 x2 15 (ix2 (0 : Fin 1) e) = Cert.RotDist.score x0 x1 x2 ⟨15, by omega⟩ e :=
  rowTerm_apply x0 x1 x2 ⟨15, by omega⟩ slices_S32x64_o15_0_S1x64 e

/-- Output row 16 (the two query rows split off). -/
theorem row16 (x0 x1 : Vec Ideal S32x64 .f32) (x2 : Vec Ideal S8192x128 .f32) (e : Fin 8192) :
    rowPay (F := Ideal) x0 x1 x2 16 (ix2 (0 : Fin 1) e) = Cert.RotDist.score x0 x1 x2 ⟨16, by omega⟩ e :=
  rowTerm_apply x0 x1 x2 ⟨16, by omega⟩ slices_S32x64_o16_0_S1x64 e

/-- Output row 17 (one payload over the halves and the head blocks). -/
theorem row17 (x0 x1 : Vec Ideal S32x64 .f32) (x2 : Vec Ideal S8192x128 .f32) (e : Fin 8192) :
    rowPay (F := Ideal) x0 x1 x2 17 (ix2 (0 : Fin 1) e) = Cert.RotDist.score x0 x1 x2 ⟨17, by omega⟩ e :=
  rowTerm_apply x0 x1 x2 ⟨17, by omega⟩ slices_S32x64_o17_0_S1x64 e

/-- Output row 18 (cut after the lane sum). -/
theorem row18 (x0 x1 : Vec Ideal S32x64 .f32) (x2 : Vec Ideal S8192x128 .f32) (e : Fin 8192) :
    rowPay (F := Ideal) x0 x1 x2 18 (ix2 (0 : Fin 1) e) = Cert.RotDist.score x0 x1 x2 ⟨18, by omega⟩ e :=
  rowTerm_apply x0 x1 x2 ⟨18, by omega⟩ slices_S32x64_o18_0_S1x64 e

/-- Output row 19 (one payload over the halves and the head blocks). -/
theorem row19 (x0 x1 : Vec Ideal S32x64 .f32) (x2 : Vec Ideal S8192x128 .f32) (e : Fin 8192) :
    rowPay (F := Ideal) x0 x1 x2 19 (ix2 (0 : Fin 1) e) = Cert.RotDist.score x0 x1 x2 ⟨19, by omega⟩ e :=
  rowTerm_apply x0 x1 x2 ⟨19, by omega⟩ slices_S32x64_o19_0_S1x64 e

/-- Output row 20 (one payload over the halves and the head blocks). -/
theorem row20 (x0 x1 : Vec Ideal S32x64 .f32) (x2 : Vec Ideal S8192x128 .f32) (e : Fin 8192) :
    rowPay (F := Ideal) x0 x1 x2 20 (ix2 (0 : Fin 1) e) = Cert.RotDist.score x0 x1 x2 ⟨20, by omega⟩ e :=
  rowTerm_apply x0 x1 x2 ⟨20, by omega⟩ slices_S32x64_o20_0_S1x64 e

/-- Output row 21 (the real row's extraction split off). -/
theorem row21 (x0 x1 : Vec Ideal S32x64 .f32) (x2 : Vec Ideal S8192x128 .f32) (e : Fin 8192) :
    rowPay (F := Ideal) x0 x1 x2 21 (ix2 (0 : Fin 1) e) = Cert.RotDist.score x0 x1 x2 ⟨21, by omega⟩ e :=
  rowTerm_apply x0 x1 x2 ⟨21, by omega⟩ slices_S32x64_o21_0_S1x64 e

/-- Output row 22 (one payload over the halves and the head blocks). -/
theorem row22 (x0 x1 : Vec Ideal S32x64 .f32) (x2 : Vec Ideal S8192x128 .f32) (e : Fin 8192) :
    rowPay (F := Ideal) x0 x1 x2 22 (ix2 (0 : Fin 1) e) = Cert.RotDist.score x0 x1 x2 ⟨22, by omega⟩ e :=
  rowTerm_apply x0 x1 x2 ⟨22, by omega⟩ slices_S32x64_o22_0_S1x64 e

/-- Output row 23 (the imaginary difference and the real square split off). -/
theorem row23 (x0 x1 : Vec Ideal S32x64 .f32) (x2 : Vec Ideal S8192x128 .f32) (e : Fin 8192) :
    rowPay (F := Ideal) x0 x1 x2 23 (ix2 (0 : Fin 1) e) = Cert.RotDist.score x0 x1 x2 ⟨23, by omega⟩ e :=
  rowTerm_apply x0 x1 x2 ⟨23, by omega⟩ slices_S32x64_o23_0_S1x64 e

/-- Output row 24 (one payload over the halves and the head blocks). -/
theorem row24 (x0 x1 : Vec Ideal S32x64 .f32) (x2 : Vec Ideal S8192x128 .f32) (e : Fin 8192) :
    rowPay (F := Ideal) x0 x1 x2 24 (ix2 (0 : Fin 1) e) = Cert.RotDist.score x0 x1 x2 ⟨24, by omega⟩ e :=
  rowTerm_apply x0 x1 x2 ⟨24, by omega⟩ slices_S32x64_o24_0_S1x64 e

/-- Output row 25 (the last cast split off). -/
theorem row25 (x0 x1 : Vec Ideal S32x64 .f32) (x2 : Vec Ideal S8192x128 .f32) (e : Fin 8192) :
    rowPay (F := Ideal) x0 x1 x2 25 (ix2 (0 : Fin 1) e) = Cert.RotDist.score x0 x1 x2 ⟨25, by omega⟩ e :=
  rowTerm_apply x0 x1 x2 ⟨25, by omega⟩ slices_S32x64_o25_0_S1x64 e

/-- Output row 26 (one payload over the halves and the head blocks). -/
theorem row26 (x0 x1 : Vec Ideal S32x64 .f32) (x2 : Vec Ideal S8192x128 .f32) (e : Fin 8192) :
    rowPay (F := Ideal) x0 x1 x2 26 (ix2 (0 : Fin 1) e) = Cert.RotDist.score x0 x1 x2 ⟨26, by omega⟩ e :=
  rowTerm_apply x0 x1 x2 ⟨26, by omega⟩ slices_S32x64_o26_0_S1x64 e

/-- Output row 27 (one payload over the halves and the head blocks). -/
theorem row27 (x0 x1 : Vec Ideal S32x64 .f32) (x2 : Vec Ideal S8192x128 .f32) (e : Fin 8192) :
    rowPay (F := Ideal) x0 x1 x2 27 (ix2 (0 : Fin 1) e) = Cert.RotDist.score x0 x1 x2 ⟨27, by omega⟩ e :=
  rowTerm_apply x0 x1 x2 ⟨27, by omega⟩ slices_S32x64_o27_0_S1x64 e

/-- Output row 28 (the two query rows split off). -/
theorem row28 (x0 x1 : Vec Ideal S32x64 .f32) (x2 : Vec Ideal S8192x128 .f32) (e : Fin 8192) :
    rowPay (F := Ideal) x0 x1 x2 28 (ix2 (0 : Fin 1) e) = Cert.RotDist.score x0 x1 x2 ⟨28, by omega⟩ e :=
  rowTerm_apply x0 x1 x2 ⟨28, by omega⟩ slices_S32x64_o28_0_S1x64 e

/-- Output row 29 (one payload over the halves and the head blocks). -/
theorem row29 (x0 x1 : Vec Ideal S32x64 .f32) (x2 : Vec Ideal S8192x128 .f32) (e : Fin 8192) :
    rowPay (F := Ideal) x0 x1 x2 29 (ix2 (0 : Fin 1) e) = Cert.RotDist.score x0 x1 x2 ⟨29, by omega⟩ e :=
  rowTerm_apply x0 x1 x2 ⟨29, by omega⟩ slices_S32x64_o29_0_S1x64 e

/-- Output row 30 (cut after the lane sum). -/
theorem row30 (x0 x1 : Vec Ideal S32x64 .f32) (x2 : Vec Ideal S8192x128 .f32) (e : Fin 8192) :
    rowPay (F := Ideal) x0 x1 x2 30 (ix2 (0 : Fin 1) e) = Cert.RotDist.score x0 x1 x2 ⟨30, by omega⟩ e :=
  rowTerm_apply x0 x1 x2 ⟨30, by omega⟩ slices_S32x64_o30_0_S1x64 e

/-- Output row 31 (one payload over the halves and the head blocks). -/
theorem row31 (x0 x1 : Vec Ideal S32x64 .f32) (x2 : Vec Ideal S8192x128 .f32) (e : Fin 8192) :
    rowPay (F := Ideal) x0 x1 x2 31 (ix2 (0 : Fin 1) e) = Cert.RotDist.score x0 x1 x2 ⟨31, by omega⟩ e :=
  rowTerm_apply x0 x1 x2 ⟨31, by omega⟩ slices_S32x64_o31_0_S1x64 e

/-- Every stored row at once: row `b` of the tile's 32 stores, at entity `e`, is the score of `b` against `e`. -/
theorem rowPay_apply (x0 x1 : Vec Ideal S32x64 .f32) (x2 : Vec Ideal S8192x128 .f32) (b : Fin 32) (e : Fin 8192) :
    rowPay (F := Ideal) x0 x1 x2 b.val (ix2 (0 : Fin 1) e) = Cert.RotDist.score x0 x1 x2 b e := by
  fin_cases b
  · exact row0 x0 x1 x2 e
  · exact row1 x0 x1 x2 e
  · exact row2 x0 x1 x2 e
  · exact row3 x0 x1 x2 e
  · exact row4 x0 x1 x2 e
  · exact row5 x0 x1 x2 e
  · exact row6 x0 x1 x2 e
  · exact row7 x0 x1 x2 e
  · exact row8 x0 x1 x2 e
  · exact row9 x0 x1 x2 e
  · exact row10 x0 x1 x2 e
  · exact row11 x0 x1 x2 e
  · exact row12 x0 x1 x2 e
  · exact row13 x0 x1 x2 e
  · exact row14 x0 x1 x2 e
  · exact row15 x0 x1 x2 e
  · exact row16 x0 x1 x2 e
  · exact row17 x0 x1 x2 e
  · exact row18 x0 x1 x2 e
  · exact row19 x0 x1 x2 e
  · exact row20 x0 x1 x2 e
  · exact row21 x0 x1 x2 e
  · exact row22 x0 x1 x2 e
  · exact row23 x0 x1 x2 e
  · exact row24 x0 x1 x2 e
  · exact row25 x0 x1 x2 e
  · exact row26 x0 x1 x2 e
  · exact row27 x0 x1 x2 e
  · exact row28 x0 x1 x2 e
  · exact row29 x0 x1 x2 e
  · exact row30 x0 x1 x2 e
  · exact row31 x0 x1 x2 e

/-- The score as a function of an index of the output tile. -/
def scoreAt (x0 x1 : Vec Ideal S32x64 .f32) (x2 : Vec Ideal S8192x128 .f32) (y : S32x8192.Idx) : EReal :=
  Cert.RotDist.score x0 x1 x2 ⟨(y 0).val, idx2_lt0 y⟩ ⟨(y 1).val, idx2_lt1 y⟩

/-- The piece stored through the rectangle of row `b` agrees with the score function on that rectangle. -/
theorem piece_apply (x0 x1 : Vec Ideal S32x64 .f32) (x2 : Vec Ideal S8192x128 .f32) (b : Fin 32)
    (inb : ∀ a, (![b.val, 0] : Fin 2 → Nat) a + S1x8192.size a ≤ S32x8192.size a)
    (x : (Rect.unit (s := S32x8192) ![b.val, 0] S1x8192.size inb).shape.Idx) :
    rowPay (F := Ideal) x0 x1 x2 b.val x = scoreAt x0 x1 x2 ((Rect.unit (s := S32x8192) ![b.val, 0] S1x8192.size inb).emb x) := by
  have hx : x = ix2 (n0 := 1) (n1 := 8192) (0 : Fin 1) (x 1) := by
    funext a
    match a with
    | ⟨0, _⟩ => exact Subsingleton.elim (α := Fin 1) _ _
    | ⟨1, _⟩ => rfl
  rw [hx]
  refine (rowPay_apply x0 x1 x2 b (x 1)).trans ?_
  unfold scoreAt
  congr 1 <;> exact Fin.ext (by simp [Rect.emb_apply])

/-- WHAT THE BODY LEAVES IN ITS OUTPUT TILE: entry `(b, e)` is the score of query row `b` against entity row `e` of the
    tile. The 32 row stores tile the buffer, and each stored row is the score function on its rectangle. -/
theorem out_apply (x0 x1 : Vec Ideal S32x64 .f32) (x2 : Vec Ideal S8192x128 .f32) (b : Fin 32) (e : Fin 8192) :
    Cert.KernelIdeal.Body.outTile (F := Ideal) x0 x1 x2 (ix2 b e) = Cert.RotDist.score x0 x1 x2 b e := by
  unfold outTile
  refine (View.canon_apply_of_pieces (scoreAt x0 x1 x2) _ ?_ (ix2 b e) (cover_rows _ _)).trans rfl
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact piece_apply x0 x1 x2 ⟨31, by omega⟩ inb_S32x8192_S1x8192_31_0 x
  · exact piece_apply x0 x1 x2 ⟨30, by omega⟩ inb_S32x8192_S1x8192_30_0 x
  · exact piece_apply x0 x1 x2 ⟨29, by omega⟩ inb_S32x8192_S1x8192_29_0 x
  · exact piece_apply x0 x1 x2 ⟨28, by omega⟩ inb_S32x8192_S1x8192_28_0 x
  · exact piece_apply x0 x1 x2 ⟨27, by omega⟩ inb_S32x8192_S1x8192_27_0 x
  · exact piece_apply x0 x1 x2 ⟨26, by omega⟩ inb_S32x8192_S1x8192_26_0 x
  · exact piece_apply x0 x1 x2 ⟨25, by omega⟩ inb_S32x8192_S1x8192_25_0 x
  · exact piece_apply x0 x1 x2 ⟨24, by omega⟩ inb_S32x8192_S1x8192_24_0 x
  · exact piece_apply x0 x1 x2 ⟨23, by omega⟩ inb_S32x8192_S1x8192_23_0 x
  · exact piece_apply x0 x1 x2 ⟨22, by omega⟩ inb_S32x8192_S1x8192_22_0 x
  · exact piece_apply x0 x1 x2 ⟨21, by omega⟩ inb_S32x8192_S1x8192_21_0 x
  · exact piece_apply x0 x1 x2 ⟨20, by omega⟩ inb_S32x8192_S1x8192_20_0 x
  · exact piece_apply x0 x1 x2 ⟨19, by omega⟩ inb_S32x8192_S1x8192_19_0 x
  · exact piece_apply x0 x1 x2 ⟨18, by omega⟩ inb_S32x8192_S1x8192_18_0 x
  · exact piece_apply x0 x1 x2 ⟨17, by omega⟩ inb_S32x8192_S1x8192_17_0 x
  · exact piece_apply x0 x1 x2 ⟨16, by omega⟩ inb_S32x8192_S1x8192_16_0 x
  · exact piece_apply x0 x1 x2 ⟨15, by omega⟩ inb_S32x8192_S1x8192_15_0 x
  · exact piece_apply x0 x1 x2 ⟨14, by omega⟩ inb_S32x8192_S1x8192_14_0 x
  · exact piece_apply x0 x1 x2 ⟨13, by omega⟩ inb_S32x8192_S1x8192_13_0 x
  · exact piece_apply x0 x1 x2 ⟨12, by omega⟩ inb_S32x8192_S1x8192_12_0 x
  · exact piece_apply x0 x1 x2 ⟨11, by omega⟩ inb_S32x8192_S1x8192_11_0 x
  · exact piece_apply x0 x1 x2 ⟨10, by omega⟩ inb_S32x8192_S1x8192_10_0 x
  · exact piece_apply x0 x1 x2 ⟨9, by omega⟩ inb_S32x8192_S1x8192_9_0 x
  · exact piece_apply x0 x1 x2 ⟨8, by omega⟩ inb_S32x8192_S1x8192_8_0 x
  · exact piece_apply x0 x1 x2 ⟨7, by omega⟩ inb_S32x8192_S1x8192_7_0 x
  · exact piece_apply x0 x1 x2 ⟨6, by omega⟩ inb_S32x8192_S1x8192_6_0 x
  · exact piece_apply x0 x1 x2 ⟨5, by omega⟩ inb_S32x8192_S1x8192_5_0 x
  · exact piece_apply x0 x1 x2 ⟨4, by omega⟩ inb_S32x8192_S1x8192_4_0 x
  · exact piece_apply x0 x1 x2 ⟨3, by omega⟩ inb_S32x8192_S1x8192_3_0 x
  · exact piece_apply x0 x1 x2 ⟨2, by omega⟩ inb_S32x8192_S1x8192_2_0 x
  · exact piece_apply x0 x1 x2 ⟨1, by omega⟩ inb_S32x8192_S1x8192_1_0 x
  · exact piece_apply x0 x1 x2 ⟨0, by omega⟩ inb_S32x8192_S1x8192_0_0 x

end Cert.RotDist.Tile

end
-- ==== Proof.FinalArr.lean ====
/-
  From the blocks the 13 grid points write back to the whole result array.

  Point `t` of the grid writes back the part of its 32 × 8192 output tile that lies inside the 32 × 100000
  result: columns 8192·t ‥ 8192·t + 8191, and at the last point only the 1696 columns up to 99999. Each tile entry
  (b, e) is the score of head row `b` against row `e` of the entity tile, and the entity tile's row `e`, for `e`
  inside the table, is row 8192·t + e of the table; the two head blocks are the whole head arrays. So what point `t`
  writes back is block `t` of ONE function of the arrays, `outArr`: entry (b, r) is the score of head row `b`
  against table row `r`. The 13 blocks cover every column (column `r` lies in block `r / 8192`), so the result
  array ends holding `outArr`.
-/
import proofs.«405154_j39573828665596_1_alg».proof.Proof.Spec
import proofs.«405154_j39573828665596_1_alg».proof.Proof.TileData
import Idealize.ShloMosaic.Lib.Pipeline.Value
import Idealize.ShloMosaic.Lib.ValueIdx

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)

/-- The score reads its three arrays only at head row `b` and entity row `e`: two settings that agree there
    (whatever the entity tables' row counts) score alike. -/
theorem score_rows_congr {n n' : Nat}
    (re im re' im' : (⟨2, ![32, 64]⟩ : Shape).Idx → EReal)
    (ent : (⟨2, ![n, 128]⟩ : Shape).Idx → EReal) (ent' : (⟨2, ![n', 128]⟩ : Shape).Idx → EReal)
    (b b' : Fin 32) (e : Fin n) (e' : Fin n')
    (hre : ∀ k : Fin 64, re (ix2 b k) = re' (ix2 b' k)) (him : ∀ k : Fin 64, im (ix2 b k) = im' (ix2 b' k))
    (hent : ∀ col : Fin 128, ent (ix2 e col) = ent' (ix2 e' col)) :
    Cert.RotDist.score re im ent b e = Cert.RotDist.score re' im' ent' b' e' := by
  unfold Cert.RotDist.score Cert.RotDist.modAt
  congr 1
  refine Finset.sum_congr rfl fun k _ => ?_
  rw [hre k, him k, hent (Cert.RotDist.lo k), hent (Cert.RotDist.hi k)]

variable (m : (ℓ : Loc nD τ sig) → Buf (Elt Ideal) ℓ)

/-- The index maps over the grid: the heads' blocks sit at block index (0, 0), the entity block of point `t` at
    (t, 0), the result block at (0, t). -/
theorem idx_facts : ∀ t : Fin cfg0.N, win0_3.index t (0 : Fin 2) = 0 ∧ win0_3.index t (1 : Fin 2) = t.val
    ∧ win0_2.index t (0 : Fin 2) = t.val ∧ win0_2.index t (1 : Fin 2) = 0
    ∧ win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The sizes the transfers move: all 32 rows of the result tile and as many of its columns as the entity tile has
    rows inside the table, all 128 columns of those; 8192 rows at points 0‥11 and 1696 at point 12. -/
theorem xsize_facts : ∀ t : Fin cfg0.N, win0_3.xsize (grid0.coords t) (0 : Fin 2) = 32
    ∧ win0_3.xsize (grid0.coords t) (1 : Fin 2) = win0_2.xsize (grid0.coords t) (0 : Fin 2)
    ∧ win0_2.xsize (grid0.coords t) (1 : Fin 2) = 128
    ∧ ((t.val < 12 ∧ win0_2.xsize (grid0.coords t) (0 : Fin 2) = 8192) ∨ (t.val = 12 ∧ win0_2.xsize (grid0.coords t) (0 : Fin 2) = 1696)) :=
  (by decide +kernel : ∀ t : Fin grid0.N, _)

/-- The real-part block at any point is the whole array of rotated real parts. -/
theorem reBlk_apply (c : Dev nD) (t : Fin cfg0.N) (b : Fin 32) (k : Fin 64) :
    reBlk m c t (ix2 b k) = V m c main_v14 (ix2 b k) := by
  obtain ⟨-, -, -, -, e0, e1, -, -⟩ := idx_facts t
  show V m c main_v14 ((win0_0.blk t).view.emb (ix2 b k)) = V m c main_v14 (ix2 b k)
  refine congrArg _ (funext fun a => Fin.ext ?_)
  match a with
  | ⟨0, _⟩ => show win0_0.index t (0 : Fin 2) * 32 + 1 * b.val = b.val; omega
  | ⟨1, _⟩ => show win0_0.index t (1 : Fin 2) * 64 + 1 * k.val = k.val; omega

/-- The imaginary-part block likewise. -/
theorem imBlk_apply (c : Dev nD) (t : Fin cfg0.N) (b : Fin 32) (k : Fin 64) :
    imBlk m c t (ix2 b k) = V m c main_v17 (ix2 b k) := by
  obtain ⟨-, -, -, -, -, -, e0, e1⟩ := idx_facts t
  show V m c main_v17 ((win0_1.blk t).view.emb (ix2 b k)) = V m c main_v17 (ix2 b k)
  refine congrArg _ (funext fun a => Fin.ext ?_)
  match a with
  | ⟨0, _⟩ => show win0_1.index t (0 : Fin 2) * 32 + 1 * b.val = b.val; omega
  | ⟨1, _⟩ => show win0_1.index t (1 : Fin 2) * 64 + 1 * k.val = k.val; omega

/-- Row `e` of the entity tile at point `t`, for `e` among the rows inside the table, is row 8192·t + e of the
    table. -/
theorem entTile_apply (c : Dev nD) (t : Fin cfg0.N) (e : Fin 8192) (col : Fin 128)
    (he : e.val < win0_2.xsize (grid0.coords t) (0 : Fin 2)) (hlt : t.val * 8192 + e.val < 100000) :
    entTile m c t (ix2 e col) = V m c main_arg1 (ix2 (⟨t.val * 8192 + e.val, hlt⟩ : Fin 100000) col) := by
  obtain ⟨-, -, e0, e1, -⟩ := idx_facts t
  obtain ⟨-, -, x1, -⟩ := xsize_facts t
  have hmv : win0_2.moved (grid0.coords t) (ix2 e col) = true := by
    rw [Window.moved_iff]; intro a
    match a with
    | ⟨0, _⟩ => exact he
    | ⟨1, _⟩ => show col.val < win0_2.xsize (grid0.coords t) (1 : Fin 2); rw [x1]; exact col.isLt
  unfold entTile Window.fill
  rw [dif_pos hmv]
  show V m c main_arg1 ((win0_2.blk t).view.emb _) = _
  refine congrArg _ (funext fun a => Fin.ext ?_)
  match a with
  | ⟨0, _⟩ => show win0_2.index t (0 : Fin 2) * 8192 + 1 * e.val = t.val * 8192 + e.val; rw [e0]; omega
  | ⟨1, _⟩ => show win0_2.index t (1 : Fin 2) * 128 + 1 * col.val = col.val; rw [e1]; omega

/-- The result array as one function: entry (b, e) is the score of head row b against entity row e of the whole table. -/
def outArr (c : Dev nD) : S32x100000.Idx → EReal := fun y =>
  Cert.RotDist.score (V m c main_v14) (V m c main_v17) (V m c main_arg1) ⟨(y 0).val, idx2_lt0 y⟩ ⟨(y 1).val, idx2_lt1 y⟩

/-- `outArr` at an index whose coordinates are `b` and `r`. -/
theorem outArr_apply (c : Dev nD) (y : S32x100000.Idx) (b : Fin 32) (r : Fin 100000)
    (h0 : (y 0).val = b.val) (h1 : (y 1).val = r.val) :
    outArr m c y = Cert.RotDist.score (V m c main_v14) (V m c main_v17) (V m c main_arg1) b r := by
  unfold outArr
  rw [show (⟨(y 0).val, idx2_lt0 y⟩ : Fin 32) = b from Fin.ext h0, show (⟨(y 1).val, idx2_lt1 y⟩ : Fin 100000) = r from Fin.ext h1]

/-- What point `t` writes back is block `t` of `outArr`. -/
theorem flushed_eq
    (hout : ∀ (x0 x1 : Vec Ideal S32x64 .f32) (x2 : Vec Ideal S8192x128 .f32) (b : Fin 32) (e : Fin 8192),
      outTile (F := Ideal) x0 x1 x2 (ix2 b e) = Cert.RotDist.score x0 x1 x2 b e)
    (c : Dev nD) (t : Fin cfg0.N) :
    (dats (F := Ideal) m 0 c).flushed 3 t = ((cfg0.win 3).blk t).view.read (Elt Ideal) (outArr m c) := by
  show (cfg0.win 3).cut (grid0.coords t) ((dats (F := Ideal) m 0 c).after 3 t) = _
  rw [after_3]
  funext j
  obtain ⟨i0, i1, -⟩ := idx_facts t
  obtain ⟨x0, x1, -, hx⟩ := xsize_facts t
  have hN : t.val < 13 := by have h := t.isLt; have e : cfg0.N = 13 := N_0; omega
  have hj0 : (j 0).val < win0_3.xsize (grid0.coords t) (0 : Fin 2) := (j 0).isLt
  have hj1 : (j 1).val < win0_3.xsize (grid0.coords t) (1 : Fin 2) := (j 1).isLt
  rw [x0] at hj0
  rw [x1] at hj1
  have hb : (j 0).val < 32 := hj0
  have he : (j 1).val < 8192 := by omega
  have hlt : t.val * 8192 + (j 1).val < 100000 := by omega
  have hxinj : win0_3.xinj (grid0.coords t) j = ix2 (⟨(j 0).val, hb⟩ : Fin 32) (⟨(j 1).val, he⟩ : Fin 8192) := by
    funext a
    match a with
    | ⟨0, _⟩ => rfl
    | ⟨1, _⟩ => rfl
  have hr0 : (((win0_3.blk t).view.emb j) 0).val = (j 0).val := by
    show win0_3.index t (0 : Fin 2) * 32 + 1 * (j 0).val = (j 0).val
    rw [i0]; omega
  have hr1 : (((win0_3.blk t).view.emb j) 1).val = t.val * 8192 + (j 1).val := by
    show win0_3.index t (1 : Fin 2) * 8192 + 1 * (j 1).val = t.val * 8192 + (j 1).val
    rw [i1]; omega
  show outTile (reBlk m c t) (imBlk m c t) (entTile m c t) (win0_3.xinj (grid0.coords t) j)
    = outArr m c ((win0_3.blk t).view.emb j)
  rw [hxinj, hout, outArr_apply m c _ (⟨(j 0).val, hb⟩ : Fin 32) (⟨t.val * 8192 + (j 1).val, hlt⟩ : Fin 100000) hr0 hr1]
  exact score_rows_congr _ _ _ _ _ _ _ _ _ _ (fun k => reBlk_apply m c t _ k) (fun k => imBlk_apply m c t _ k)
    (fun col => entTile_apply m c t _ col hj1 hlt)

/-- An index of the result array is in point `t`'s block iff each coordinate is in the block's range inside the array. -/
theorem mem_blk (t : Fin cfg0.N) (i : S32x100000.Idx) :
    i ∈ ((cfg0.win 3).blk t).view.set ↔ ∀ a : Fin 2, win0_3.index t a * S32x8192.size a ≤ (i a).val
      ∧ (i a).val < win0_3.index t a * S32x8192.size a + win0_3.xsize (grid0.coords t) a := by
  show i ∈ ((View.whole main_v18).slice (win0_3.rect t)).set ↔ _
  rw [View.set_slice_whole, Rect.mem_set_unit]
  exact Iff.rfl

/-- Every index of the result array lies in the block of the point its column names: column `r` in block `r / 8192`. -/
theorem cover (i : S32x100000.Idx) :
    ∃ t : Fin cfg0.N, (cfg0.win 3).flush t = true ∧ i ∈ ((cfg0.win 3).blk t).view.set := by
  have h0 : (i 0).val < 32 := idx2_lt0 i
  have h1 : (i 1).val < 100000 := idx2_lt1 i
  obtain ⟨t, tv⟩ : ∃ t : Fin cfg0.N, t.val = (i 1).val / 8192 :=
    ⟨⟨(i 1).val / 8192, by rw [show cfg0.N = 13 from N_0]; omega⟩, rfl⟩
  refine ⟨t, flush0_3 t, ?_⟩
  rw [mem_blk]
  obtain ⟨i0, i1, -⟩ := idx_facts t
  obtain ⟨x0, x1, -, hx⟩ := xsize_facts t
  intro a
  match a with
  | ⟨0, _⟩ =>
    show win0_3.index t (0 : Fin 2) * 32 ≤ (i 0).val
      ∧ (i 0).val < win0_3.index t (0 : Fin 2) * 32 + win0_3.xsize (grid0.coords t) (0 : Fin 2)
    rw [i0, x0]; omega
  | ⟨1, _⟩ =>
    show win0_3.index t (1 : Fin 2) * 8192 ≤ (i 1).val
      ∧ (i 1).val < win0_3.index t (1 : Fin 2) * 8192 + win0_3.xsize (grid0.coords t) (1 : Fin 2)
    rw [i1, x1]; omega

theorem final_out
    (hout : ∀ (x0 x1 : Vec Ideal S32x64 .f32) (x2 : Vec Ideal S8192x128 .f32) (b : Fin 32) (e : Fin 8192),
      outTile (F := Ideal) x0 x1 x2 (ix2 b e) = Cert.RotDist.score x0 x1 x2 b e)
    (c : Dev nD) : (dats (F := Ideal) m 0 c).arrAt 3 cfg0.N = outArr m c :=
  (dats (F := Ideal) m 0 c).arrAt_eq_of_cover 3 (outArr m c) (fun t _ => flushed_eq m hout c t) cover

end Cert.KernelIdeal.Body

end
-- ==== Proof.RefScore.lean ====
/-
  The reference program's result, read at the index (b, e), is the RotatE score of query row b against
  entity row e of the whole table.

  The reference broadcasts the rotated head (real and imaginary parts, each 32 × 64) and the two column
  halves of the 100000 × 128 entity table to 32 × 100000 × 64, subtracts, squares, adds, takes the square
  root, sums over the last axis from the initial value zero, and subtracts the sum from the margin.  Reading
  each of these operations at an index and composing the index maps gives, for component k, exactly the
  modulus of the specification; the initial value zero is absorbed by zero_add, and the margin is the same
  word on both sides.
-/
import proofs.«405154_j39573828665596_1_alg».proof.Proof.Spec
import proofs.«405154_j39573828665596_1_alg».proof.Proof.Gen.ReferenceIdeal.Read
import Idealize.ShloMosaic.PureOps.Ideal.Laws

noncomputable section

open scoped BigOperators

namespace Cert.RotDist.Ref

open Idealize.ShloMosaic Idealize.ShloMosaic.ValueIdx Cert.ReferenceIdeal

/-- The head's index under the two broadcasts: row b, component k. -/
theorem idx_head (b : Fin 32) (e : Fin 100000) (k : Fin 64) :
    Read.idx_main_v32 (Read.idx_main_v34 (Read.idx_main_v46 (ix2 b e) k)) = ix2 b k :=
  funext fun a => Fin.ext (by match a with | ⟨0, _⟩ => rfl | ⟨1, _⟩ => rfl)

/-- The same for the imaginary part's broadcasts. -/
theorem idx_head' (b : Fin 32) (e : Fin 100000) (k : Fin 64) :
    Read.idx_main_v37 (Read.idx_main_v39 (Read.idx_main_v46 (ix2 b e) k)) = ix2 b k :=
  funext fun a => Fin.ext (by match a with | ⟨0, _⟩ => rfl | ⟨1, _⟩ => rfl)

/-- The entity's real column under the slice 0:64 and the two broadcasts: row e, column k. -/
theorem idx_ent_lo (b : Fin 32) (e : Fin 100000) (k : Fin 64) :
    Read.idx_main_v20 (Read.idx_main_v33 (Read.idx_main_v35 (Read.idx_main_v46 (ix2 b e) k))) = ix2 e (lo k) :=
  funext fun a => Fin.ext (by match a with | ⟨0, _⟩ => rfl | ⟨1, _⟩ => rfl)

/-- The entity's imaginary column under the slice 64:128 and the two broadcasts: row e, column 64 + k. -/
theorem idx_ent_hi (b : Fin 32) (e : Fin 100000) (k : Fin 64) :
    Read.idx_main_v21 (Read.idx_main_v38 (Read.idx_main_v40 (Read.idx_main_v46 (ix2 b e) k))) = ix2 e (hi k) :=
  funext fun a => Fin.ext (by match a with | ⟨0, _⟩ => rfl | ⟨1, _⟩ => rfl)

theorem ref_apply (x0 : (⟨S32x3, .i32⟩ : BufTy).Contents (Elt Ideal)) (x1 : (⟨S100000x128, .f32⟩ : BufTy).Contents (Elt Ideal))
    (x2 : (⟨S1000x64, .f32⟩ : BufTy).Contents (Elt Ideal)) (b : Fin 32) (e : Fin 100000) :
    Cert.ReferenceIdeal.Read.val_main_v48 (F := Ideal) x0 x1 x2 (ix2 b e)
      = Cert.RotDist.score (Cert.ReferenceIdeal.Read.val_main_v28 (F := Ideal) x0 x1 x2)
          (Cert.ReferenceIdeal.Read.val_main_v31 (F := Ideal) x0 x1 x2) x1 b e := by
  unfold Cert.RotDist.score Cert.RotDist.modAt
  rw [Read.val_main_v48_apply, Read.val_main_v47_apply, Read.val_main_cst_4_apply, Read.val_main_v46_apply,
    Read.val_main_cst_3_apply]
  simp only [Ideal.subf_def, Ideal.ofBits_def, Ideal.ofBits_zero_f32, zero_add]
  refine congrArg (_ - ·) (Finset.sum_congr rfl fun k _ => ?_)
  rw [Read.val_main_v45_apply, Read.val_main_v44_apply, Read.val_main_v42_apply, Read.val_main_v43_apply,
    Read.val_main_v36_apply, Read.val_main_v41_apply, Read.val_main_v34_apply, Read.val_main_v39_apply,
    Read.val_main_v32_apply, Read.val_main_v37_apply, Read.val_main_v35_apply, Read.val_main_v40_apply,
    Read.val_main_v33_apply, Read.val_main_v38_apply, Read.val_main_v20_apply, Read.val_main_v21_apply,
    idx_head, idx_head', idx_ent_lo, idx_ent_hi]
  simp only [Ideal.hostUnary_sqrt_def, Ideal.addf_def, Ideal.mulf_def, Ideal.subf_def]

end Cert.RotDist.Ref

end
-- ==== Proof.PreIdx.lean ====
/-
  THE PRECONDITION READ AT ONE ROW. The precondition's last two conjuncts say of the [32, 3] index table that every word
  of column 0 is in [0, 100000) and every word of column 1 is in [0, 1000), as signed comparisons, each conjoined over all rows.
  Read at row b: both words are below their table's extent as naturals (a word in [0, n) signed, n < 2³¹, is below n
  unsigned).
-/
import proofs.«405154_j39573828665596_1_alg».proof.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.RotDist.PreIdx

open Idealize.ShloMosaic Idealize.ShloMosaic.ValueIdx
open Cert.Pre_finite_inputs

/-- The scalar shape has one index. -/
instance subsingleton_S_ : Subsingleton S_.Idx := ⟨fun a b => funext fun d => d.elim0⟩

/-- A conjunction of two bits is 1 exactly when both are. -/
theorem and1 : ∀ a b : BitVec 1, IntOp.andi a b = 1#1 ↔ a = 1#1 ∧ b = 1#1 := by decide

/-- A word in [0, n) signed, n below 2³¹, is below n unsigned. -/
theorem toNat_lt (w : BitVec 32) (n : Nat) (hn : n < 2 ^ 31) (h0 : IntOp.cmpi .sge w (0#32) = 1#1)
    (h1 : IntOp.cmpi .slt w (BitVec.ofNat 32 n) = 1#1) : w.toNat < n := by
  have hge : (0#32 : BitVec 32).toInt ≤ w.toInt := IntOp.cmpi_sge.1 h0
  have hz : (0#32 : BitVec 32).toInt = 0 := by decide
  rw [hz] at hge
  have hw : w.toNat < 2 ^ 31 := by
    by_contra hc
    have hm : w.msb = true := by
      rw [BitVec.msb_eq_true_iff_two_mul_ge]; omega
    rw [BitVec.toInt_eq_msb_cond, hm] at hge
    have := w.isLt
    simp only [if_true] at hge
    omega
  have hn' : (BitVec.ofNat 32 n).toNat = n := by
    rw [BitVec.toNat_ofNat]; exact Nat.mod_eq_of_lt (by omega)
  have := (StableHlo.Predicate.slt_iff_toNat (a := w) (b := BitVec.ofNat 32 n) hw (by rw [hn']; exact hn)).1 h1
  rw [hn'] at this
  exact this

/-- Column k of the [32, 3] table, as the slice [0:32, k:k+1] reshaped to [32], read at row b. -/
theorem col_apply (a0 : IVec S32x3 32) (k : Fin 3) (hs : S32x3.Slices ![0, k.val] S32x1) (hc : S32x1.ShapeCasts S32) (b : Fin 32) :
    shapeCast S32 (extractStridedSlice S32x1 ![0, k.val] a0 hs) hc (ix1 b) = a0 (ix2 b k) := by
  refine (shapeCast_apply _ hc (ix1 b) (ix2 b (0 : Fin 1)) ?_).trans ?_
  · rw [Shape.rowMajor_val_two, Shape.rowMajor_val_one]
    show b.val * 1 + 0 = b.val
    omega
  · exact extractStridedSlice_apply ![0, k.val] a0 hs (ix2 b (0 : Fin 1)) (ix2 b k) (fun a => match a with
      | ⟨0, _⟩ => by show b.val = 0 + b.val; omega
      | ⟨1, _⟩ => by show k.val = k.val + 0; omega)

theorem idx_in_range {F : FTy → Type} [FloatOps F] [Cert.Pre_finite_inputs.Facts]
    (a0 : IVec Cert.Pre_finite_inputs.S32x3 32) (a1 : FVec F Cert.Pre_finite_inputs.S100000x128 .f32) (a2 : FVec F Cert.Pre_finite_inputs.S1000x64 .f32)
    (h : Cert.Pre_finite_inputs.fn (F := F) a0 a1 a2 = fun _ => 1#1) (b : Fin 32) :
    (a0 (ix2 b (0 : Fin 3))).toNat < 100000 ∧ (a0 (ix2 b (1 : Fin 3))).toNat < 1000 := by
  have e := congrFun h ix0
  unfold Cert.Pre_finite_inputs.fn Cert.Pre_finite_inputs.fn_part1 at e
  dsimp only at e
  -- the four conjuncts: the two finiteness facts, column 0 in range, column 1 in range
  obtain ⟨e1, hD⟩ := (and1 _ _).1 e
  obtain ⟨-, hC⟩ := (and1 _ _).1 e1
  -- each all-reduction at row b, then its two comparisons
  have hC' := Host.reduce_andi_all _ _ _ _ ix0 hC (ix1 b)
  have hD' := Host.reduce_andi_all _ _ _ _ ix0 hD (ix1 b)
  obtain ⟨hC0, hC1⟩ := (and1 _ _).1 hC'
  obtain ⟨hD0, hD1⟩ := (and1 _ _).1 hD'
  have c0 := col_apply a0 (0 : Fin 3) Facts.slices_S32x3_S32x1_0_0 Facts.shapeCasts_S32x1_S32 b
  have c1 := col_apply a0 (1 : Fin 3) Facts.slices_S32x3_S32x1_0_1 Facts.shapeCasts_S32x1_S32 b
  refine ⟨toNat_lt _ 100000 (by decide) ?_ ?_, toNat_lt _ 1000 (by decide) ?_ ?_⟩
  · rw [← c0]; exact hC0
  · rw [← c0]; exact hC1
  · rw [← c1]; exact hD0
  · rw [← c1]; exact hD1

end Cert.RotDist.PreIdx

end
-- ==== Proof.KernelHost.lean ====
/-
  THE KERNEL PROGRAM'S HOST PREAMBLE COMPUTES THE REFERENCE'S ROTATED HEAD, UNDER THE PRECONDITION.

  Before its one region the kernel program takes the head rows (table [100000, 128], index column 0) and the relation
  rows (table [1000, 64], index column 1) and rotates the head by the relation's phase. Its take is a guarded gather:
  a negative index word has the table's extent added; the row is kept where the resulting word lies in [0, extent - 1]
  and filled with a fixed constant elsewhere. The reference indexes the tables with the same normalised words and no
  guard. Under the precondition every index word of column 0 is in [0, 100000) and every word of column 1 in [0, 1000):
  the guard is all ones, the fill is never selected, and both programs rotate the same gathered rows.
-/
import proofs.«405154_j39573828665596_1_alg».proof.Defs
import proofs.«405154_j39573828665596_1_alg».proof.Proof.Gen.KernelIdeal.Frame
import proofs.«405154_j39573828665596_1_alg».proof.Proof.Gen.ReferenceIdeal.Read
import proofs.«405154_j39573828665596_1_alg».proof.Proof.PreIdx
import Idealize.ShloMosaic.Lib.StableHlo.Run
import Idealize.ShloMosaic.Lib.StableHlo.Predicate
import Idealize.ShloMosaic.Lib.ValueIdx

noncomputable section

namespace Cert.RotDist.KHost

open Idealize.ShloMosaic Idealize.ShloMosaic.TcCoe Idealize.SL.Sem
open Idealize.ShloMosaic.ValueIdx

/-! ## Words: an index word below the extent passes the guard unchanged -/

/-- A word below an extent N < 2³¹ is not negative, and is at most N - 1, as signed words. -/
theorem word_in_range (w N hi : BitVec 32) (hN : N.toNat < 2 ^ 31) (hhi : hi.toNat + 1 = N.toNat) (hw : w.toNat < N.toNat) :
    IntOp.cmpi .slt w 0#32 = 0#1 ∧ IntOp.cmpi .sge w 0#32 = 1#1 ∧ IntOp.cmpi .sle w hi = 1#1 := by
  have hw' : w.toNat < 2 ^ 31 := by omega
  have hz : (0#32 : BitVec 32).toNat = 0 := rfl
  have hz' : (0#32 : BitVec 32).toNat < 2 ^ 31 := by rw [hz]; decide
  refine ⟨?_, ?_, ?_⟩
  · refine eq_zero_of_ne_one fun h => ?_
    have := (StableHlo.Predicate.slt_iff_toNat hw' hz').1 h
    omega
  · exact (StableHlo.Predicate.sge_iff_toNat hw' hz').2 (by omega)
  · exact (StableHlo.Predicate.sle_iff_toNat hw' (by omega)).2 (by omega)

/-- The guard's two comparisons of the normalised word, conjoined, at a word below the extent. -/
theorem guard_word (w N hi : BitVec 32) (hN : N.toNat < 2 ^ 31) (hhi : hi.toNat + 1 = N.toNat) (hw : w.toNat < N.toNat) :
    IntOp.andi (IntOp.cmpi .sge (Scalar.select (IntOp.cmpi .slt w 0#32) (IntOp.addi w N) w) 0#32)
      (IntOp.cmpi .sle (Scalar.select (IntOp.cmpi .slt w 0#32) (IntOp.addi w N) w) hi) = 1#1 := by
  obtain ⟨hlt, hge, hle⟩ := word_in_range w N hi hN hhi hw
  rw [hlt, select_zero, hge, hle]
  decide

/-! ## A conjunction over a set of ones is one -/

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by conjunction, from one, of an array that is one everywhere is one at every result index. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun i _ => hx i

/-! ## The guarded take, over variables -/

section Take

abbrev R1 : Shape := ⟨1, ![32]⟩
abbrev R2 : Shape := ⟨2, ![32, 1]⟩
abbrev Z0 : Shape := ⟨0, ![]⟩
abbrev U1 : Shape := ⟨1, ![1]⟩
abbrev U2 : Shape := ⟨2, ![1, 1]⟩
abbrev RK (K : Nat) : Shape := ⟨2, ![32, K]⟩

variable {K : Nat} (N hi : BitVec 32)
  (h1 : Z0.BroadcastsInDim R1 (![] : Fin 0 → Fin R1.rank))
  (h2 : R1.BroadcastsInDim R2 (![0] : Fin 1 → Fin R2.rank))
  (h3 : Z0.BroadcastsInDim R2 (![] : Fin 0 → Fin R2.rank))
  (h4 : U1.BroadcastsInDim U2 (![1] : Fin 1 → Fin U2.rank))
  (h5 : U2.BroadcastsInDim R2 (![0, 1] : Fin 2 → Fin R2.rank))
  (h6 : R2.ReducesTo [1] R1) (h7 : 0 < Z0.numel)
  (h8 : R1.BroadcastsInDim (RK K) (![0] : Fin 1 → Fin (RK K).rank))

/-- The index normalisation: a negative word has the extent added. -/
def normIdx (idx : IVec R1 32) : IVec R1 32 :=
  select (cmpi .slt idx (broadcastInDim R1 ![] h1 (constantI Z0 32 0#32)))
    (addi idx (broadcastInDim R1 ![] h1 (constantI Z0 32 N))) idx

/-- The normalised indices as a [32, 1] column: the gather's start indices. -/
def startIdx (idx : IVec R1 32) : IVec R2 32 := broadcastInDim R2 ![0] h2 (normIdx N h1 idx)

/-- The guard: per row, the start index is in [0, hi]. -/
def inRange (i5 : IVec R2 32) : IVec R1 1 :=
  Host.reduce IntOp.andi
    (andi (cmpi .sge i5 (broadcastInDim R2 ![] h3 (constantI Z0 32 0#32)))
      (cmpi .sle i5 (broadcastInDim R2 ![0, 1] h5 (broadcastInDim U2 ![1] h4 (constantI U1 32 hi)))))
    (constantI Z0 1 1#1) h6 h7

/-- The guarded take of a table read through its gather G: rows whose start index fails the guard are filled. -/
def take {α : Type} (G : IVec R2 32 → (RK K).Idx → α) (fill : (RK K).Idx → α) (idx : IVec R1 32) : (RK K).Idx → α :=
  select (broadcastInDim (RK K) ![0] h8 (inRange hi h3 h4 h5 h6 h7 (startIdx N h1 h2 idx)))
    (G (startIdx N h1 h2 idx)) fill

/-- With every index word below the extent the guard is all ones: the take is the gather. -/
theorem take_eq {α : Type} (hN : N.toNat < 2 ^ 31) (hhi : hi.toNat + 1 = N.toNat)
    (G : IVec R2 32 → (RK K).Idx → α) (fill : (RK K).Idx → α) (idx : IVec R1 32)
    (hidx : ∀ k : R1.Idx, (idx k).toNat < N.toNat) :
    take N hi h1 h2 h3 h4 h5 h6 h7 h8 G fill idx = G (startIdx N h1 h2 idx) := by
  have hm : ∀ k : R1.Idx, inRange hi h3 h4 h5 h6 h7 (startIdx N h1 h2 idx) k = 1#1 := by
    intro k
    refine reduce_andi_one _ _ h6 h7 rfl (fun i => ?_) k
    exact guard_word _ N hi hN hhi (hidx _)
  funext j
  have hj : broadcastInDim (RK K) ![0] h8 (inRange hi h3 h4 h5 h6 h7 (startIdx N h1 h2 idx)) j = 1#1 := hm _
  show Scalar.select (broadcastInDim (RK K) ![0] h8 (inRange hi h3 h4 h5 h6 h7 (startIdx N h1 h2 idx)) j)
    (G (startIdx N h1 h2 idx) j) (fill j) = G (startIdx N h1 h2 idx) j
  rw [hj]
  exact select_one _ _

end Take

/-! ## The two programs' preambles as terms -/

section Terms

open Cert.KernelIdeal Cert.KernelIdeal.Gen

variable {F : FTy → Type} [FloatOps F]

/-- Column k of the [32, 3] index table as a [32] vector. -/
def col (k : Nat) (hs : S32x3.Slices ![0, k] S32x1) (x0 : (⟨S32x3, .i32⟩ : BufTy).Contents (Elt F)) :
    (⟨S32, .i32⟩ : BufTy).Contents (Elt F) :=
  shapeCast S32 (extractStridedSlice S32x1 ![0, k] x0 hs) shapeCasts_S32x1_S32

/-- The relation's phase: the relation rows over the phase unit. -/
def phase (r : (⟨S32x64, .f32⟩ : BufTy).Contents (Elt F)) : (⟨S32x64, .f32⟩ : BufTy).Contents (Elt F) :=
  Host.divf r (broadcastInDim S32x64 ![] bcast_S_S32x64 (constant (F := F) S_ .f32 0x3D8E9A53#32))

/-- The rotated head's real part: re(head) · cos(phase) - im(head) · sin(phase). -/
def rotRe (h : (⟨S32x128, .f32⟩ : BufTy).Contents (Elt F)) (r : (⟨S32x64, .f32⟩ : BufTy).Contents (Elt F)) :
    (⟨S32x64, .f32⟩ : BufTy).Contents (Elt F) :=
  subf (mulf (extractStridedSlice S32x64 ![0, 0] h slices_S32x128_S32x64_0_0) (Host.cos (phase r)))
    (mulf (extractStridedSlice S32x64 ![0, 64] h slices_S32x128_S32x64_0_64) (Host.sin (phase r)))

/-- The rotated head's imaginary part: re(head) · sin(phase) + im(head) · cos(phase). -/
def rotIm (h : (⟨S32x128, .f32⟩ : BufTy).Contents (Elt F)) (r : (⟨S32x64, .f32⟩ : BufTy).Contents (Elt F)) :
    (⟨S32x64, .f32⟩ : BufTy).Contents (Elt F) :=
  addf (mulf (extractStridedSlice S32x64 ![0, 0] h slices_S32x128_S32x64_0_0) (Host.sin (phase r)))
    (mulf (extractStridedSlice S32x64 ![0, 64] h slices_S32x128_S32x64_0_64) (Host.cos (phase r)))

/-- The head rows' gather at given start indices. -/
def gHead (x1 : (⟨S100000x128, .f32⟩ : BufTy).Contents (Elt F)) (i : IVec R2 32) : (⟨S32x128, .f32⟩ : BufTy).Contents (Elt F) :=
  Host.gather gather_S100000x128_S32x1_S32x128_1_0_n_n_0_1_1128 x1 i

/-- The relation rows' gather at given start indices. -/
def gRel (x2 : (⟨S1000x64, .f32⟩ : BufTy).Contents (Elt F)) (i : IVec R2 32) : (⟨S32x64, .f32⟩ : BufTy).Contents (Elt F) :=
  Host.gather gather_S1000x64_S32x1_S32x64_1_0_n_n_0_1_164 x2 i

/-- The kernel program's head: the guarded take of the head table at column 0. -/
def kHead (x0 : (⟨S32x3, .i32⟩ : BufTy).Contents (Elt F)) (x1 : (⟨S100000x128, .f32⟩ : BufTy).Contents (Elt F)) :
    (⟨S32x128, .f32⟩ : BufTy).Contents (Elt F) :=
  take (K := 128) 100000#32 99999#32 bcast_S_S32 bcast_S32_S32x1_0 bcast_S_S32x1 bcast_S1_S1x1_1 bcast_S1x1_S32x1_0_1
    reducesTo_S32x1_S32_d1 h_S_ bcast_S32_S32x128_0 (gHead x1)
    (broadcastInDim S32x128 ![] bcast_S_S32x128 (constant (F := F) S_ .f32 0x7FC00000#32))
    (col 0 slices_S32x3_S32x1_0_0 x0)

/-- The kernel program's relation: the guarded take of the relation table at column 1. -/
def kRel (x0 : (⟨S32x3, .i32⟩ : BufTy).Contents (Elt F)) (x2 : (⟨S1000x64, .f32⟩ : BufTy).Contents (Elt F)) :
    (⟨S32x64, .f32⟩ : BufTy).Contents (Elt F) :=
  take (K := 64) 1000#32 999#32 bcast_S_S32 bcast_S32_S32x1_0 bcast_S_S32x1 bcast_S1_S1x1_1 bcast_S1x1_S32x1_0_1
    reducesTo_S32x1_S32_d1 h_S_ bcast_S32_S32x64_0 (gRel x2)
    (broadcastInDim S32x64 ![] bcast_S_S32x64 (constant (F := F) S_ .f32 0x7FC00000#32))
    (col 1 slices_S32x3_S32x1_0_1 x0)

/-- The reference's head: the unguarded gather at the same start indices. -/
def rHead (x0 : (⟨S32x3, .i32⟩ : BufTy).Contents (Elt F)) (x1 : (⟨S100000x128, .f32⟩ : BufTy).Contents (Elt F)) :
    (⟨S32x128, .f32⟩ : BufTy).Contents (Elt F) :=
  gHead x1 (startIdx 100000#32 bcast_S_S32 bcast_S32_S32x1_0 (col 0 slices_S32x3_S32x1_0_0 x0))

/-- The reference's relation. -/
def rRel (x0 : (⟨S32x3, .i32⟩ : BufTy).Contents (Elt F)) (x2 : (⟨S1000x64, .f32⟩ : BufTy).Contents (Elt F)) :
    (⟨S32x64, .f32⟩ : BufTy).Contents (Elt F) :=
  gRel x2 (startIdx 1000#32 bcast_S_S32 bcast_S32_S32x1_0 (col 1 slices_S32x3_S32x1_0_1 x0))

/-- The reference's rotated head, real part, is the rotation of its two gathers. -/
theorem ref_re (x0 : (⟨S32x3, .i32⟩ : BufTy).Contents (Elt F)) (x1 : (⟨S100000x128, .f32⟩ : BufTy).Contents (Elt F))
    (x2 : (⟨S1000x64, .f32⟩ : BufTy).Contents (Elt F)) :
    Cert.ReferenceIdeal.Read.val_main_v28 (F := F) x0 x1 x2 = rotRe (rHead x0 x1) (rRel x0 x2) := rfl

/-- The reference's rotated head, imaginary part. -/
theorem ref_im (x0 : (⟨S32x3, .i32⟩ : BufTy).Contents (Elt F)) (x1 : (⟨S100000x128, .f32⟩ : BufTy).Contents (Elt F))
    (x2 : (⟨S1000x64, .f32⟩ : BufTy).Contents (Elt F)) :
    Cert.ReferenceIdeal.Read.val_main_v31 (F := F) x0 x1 x2 = rotIm (rHead x0 x1) (rRel x0 x2) := rfl

end Terms

/-! ## Under the index ranges the kernel's takes are the reference's gathers -/

section Guard

open Cert.KernelIdeal Cert.KernelIdeal.Gen

variable {F : FTy → Type} [FloatOps F]

/-- Column k of the table read at row b. -/
theorem col_at (k : Fin 3) (hs : S32x3.Slices ![0, k.val] S32x1) (x0 : (⟨S32x3, .i32⟩ : BufTy).Contents (Elt F)) (j : R1.Idx) :
    col (F := F) k.val hs x0 j = x0 (ix2 (j 0) k) := by
  rw [eq_ix1 j]
  exact Cert.RotDist.PreIdx.col_apply x0 k hs shapeCasts_S32x1_S32 (j 0)

theorem kHead_eq (x0 : (⟨S32x3, .i32⟩ : BufTy).Contents (Elt F)) (x1 : (⟨S100000x128, .f32⟩ : BufTy).Contents (Elt F))
    (h : ∀ b : Fin 32, (x0 (ix2 b (0 : Fin 3))).toNat < 100000) : kHead (F := F) x0 x1 = rHead x0 x1 := by
  unfold kHead rHead
  refine take_eq _ _ _ _ _ _ _ _ _ _ (by decide) (by decide) _ _ _ (fun j => ?_)
  exact lt_of_eq_of_lt (congrArg BitVec.toNat (col_at (F := F) (0 : Fin 3) slices_S32x3_S32x1_0_0 x0 j)) (h (j 0))

theorem kRel_eq (x0 : (⟨S32x3, .i32⟩ : BufTy).Contents (Elt F)) (x2 : (⟨S1000x64, .f32⟩ : BufTy).Contents (Elt F))
    (h : ∀ b : Fin 32, (x0 (ix2 b (1 : Fin 3))).toNat < 1000) : kRel (F := F) x0 x2 = rRel x0 x2 := by
  unfold kRel rRel
  refine take_eq _ _ _ _ _ _ _ _ _ _ (by decide) (by decide) _ _ _ (fun j => ?_)
  exact lt_of_eq_of_lt (congrArg BitVec.toNat (col_at (F := F) (1 : Fin 3) slices_S32x3_S32x1_0_1 x0 j)) (h (j 0))

end Guard

/-! ## The kernel program's buffers at region entry, as terms -/

section Kernel

open Cert.KernelIdeal Cert.KernelIdeal.Gen

variable {F : FTy → Type} [FloatOps F]
variable (m : (ℓ : Loc nD τ sig) → Buf (Elt F) ℓ)

/-- The buffer of the rotated head's real part holds the rotation of the two guarded takes. -/
theorem V_re_term (c : Dev nD) :
    (V (F := F) m c main_v14 : (⟨S32x64, .f32⟩ : BufTy).Contents (Elt F))
      = rotRe (kHead (m ((c : Thread nD τ).loc main_arg0)) (m ((c : Thread nD τ).loc main_arg1)))
          (kRel (m ((c : Thread nD τ).loc main_arg0)) (m ((c : Thread nD τ).loc main_arg2))) := by
  dsimp only [V]
  simp only [hostOps0, hostOps0_1, hostOps0_2, hostOps0_3, hostOps0_4, List.flatten_cons, List.flatten_nil, List.append_nil,
    List.cons_append, List.nil_append]
  after_results_simp
  simp only [StableHlo.TRef.ofBuf, StableHlo.TRef.toBuf, cast_eq]
  unfold rotRe kHead kRel take inRange startIdx normIdx col phase gHead gRel
  rfl

/-- The buffer of the rotated head's imaginary part. -/
theorem V_im_term (c : Dev nD) :
    (V (F := F) m c main_v17 : (⟨S32x64, .f32⟩ : BufTy).Contents (Elt F))
      = rotIm (kHead (m ((c : Thread nD τ).loc main_arg0)) (m ((c : Thread nD τ).loc main_arg1)))
          (kRel (m ((c : Thread nD τ).loc main_arg0)) (m ((c : Thread nD τ).loc main_arg2))) := by
  dsimp only [V]
  simp only [hostOps0, hostOps0_1, hostOps0_2, hostOps0_3, hostOps0_4, List.flatten_cons, List.flatten_nil, List.append_nil,
    List.cons_append, List.nil_append]
  after_results_simp
  simp only [StableHlo.TRef.ofBuf, StableHlo.TRef.toBuf, cast_eq]
  unfold rotIm kHead kRel take inRange startIdx normIdx col phase gHead gRel
  rfl

end Kernel

/-! ## The two buffers the region reads are the reference's rotated head -/

theorem V_re [Cert.KernelIdeal.Facts] [Cert.ReferenceIdeal.Facts] [Cert.Pre_finite_inputs.Facts]
    (m : (ℓ : Loc Cert.KernelIdeal.nD Cert.KernelIdeal.τ Cert.KernelIdeal.sig) → Buf (Elt Ideal) ℓ) (hpre : Cert.Pre_KernelIdeal m) (c : Dev Cert.KernelIdeal.nD) :
    Cert.KernelIdeal.Gen.V (F := Ideal) m c Cert.KernelIdeal.main_v14
      = Cert.ReferenceIdeal.Read.val_main_v28 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  have hr := fun b => Cert.RotDist.PreIdx.idx_in_range (F := Ideal) _ _ _ (hpre c) b
  have e1 := kHead_eq (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (fun b => (hr b).1)
  have e2 := kRel_eq (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg2)) (fun b => (hr b).2)
  exact (V_re_term m c).trans ((congrArg₂ rotRe e1 e2).trans (ref_re _ _ _).symm)

theorem V_im [Cert.KernelIdeal.Facts] [Cert.ReferenceIdeal.Facts] [Cert.Pre_finite_inputs.Facts]
    (m : (ℓ : Loc Cert.KernelIdeal.nD Cert.KernelIdeal.τ Cert.KernelIdeal.sig) → Buf (Elt Ideal) ℓ) (hpre : Cert.Pre_KernelIdeal m) (c : Dev Cert.KernelIdeal.nD) :
    Cert.KernelIdeal.Gen.V (F := Ideal) m c Cert.KernelIdeal.main_v17
      = Cert.ReferenceIdeal.Read.val_main_v31 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  have hr := fun b => Cert.RotDist.PreIdx.idx_in_range (F := Ideal) _ _ _ (hpre c) b
  have e1 := kHead_eq (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (fun b => (hr b).1)
  have e2 := kRel_eq (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg2)) (fun b => (hr b).2)
  exact (V_im_term m c).trans ((congrArg₂ rotIm e1 e2).trans (ref_im _ _ _).symm)

end Cert.RotDist.KHost

end
-- ==== Proof.lean ====
/-
  The certificate of the RotatE retrieval-score kernel against its jnp reference.

  Both programs gather, for each of 32 facts, a head row of the entity table and a relation row, rotate the head
  by the relation's phase (the complex product with cos + i·sin of the phase), and score the rotated head against
  EVERY one of the 100000 entities: 12 minus the sum over the 64 complex components of the modulus of the
  difference. The kernel program does the gather and rotation on the host and the 32 × 100000 scores in one
  pipelined kernel over 13 tiles of 8192 entities; the reference is one jnp expression.

  The precondition says the float tables are finite and the two index columns name rows of their tables. Within that
  range the kernel program's gather (which would fill a row with a not-a-number pattern for an index out of range)
  is the reference's gather, so the rotated heads agree; and on the extended reals the kernel's per-tile, per-row
  arithmetic and the reference's broadcast arithmetic are the same sum of the same 64 terms, in the same order of
  operations inside each term. No algebraic law is needed beyond reading both sides at an index, so finiteness is
  never used.

  Frames: the word-level program through relational proof data (its output's contents are not named); the
  idealized program from its value run; the reference from its generated run. The idealization rewrote nothing,
  so `preserves` is trivial.
-/
import proofs.«405154_j39573828665596_1_alg».proof.Defs
import proofs.«405154_j39573828665596_1_alg».proof.Proof.Gen.Kernel
import proofs.«405154_j39573828665596_1_alg».proof.Proof.Gen.KernelIdeal
import proofs.«405154_j39573828665596_1_alg».proof.Proof.Gen.ReferenceIdeal
import proofs.«405154_j39573828665596_1_alg».proof.Proof.Gen.ReferenceIdeal.Run
import proofs.«405154_j39573828665596_1_alg».proof.Proof.Gen.ReferenceIdeal.Read
import proofs.«405154_j39573828665596_1_alg».proof.Proof.Gen.Pre_finite_inputs
import proofs.«405154_j39573828665596_1_alg».proof.Proof.FrameBits
import proofs.«405154_j39573828665596_1_alg».proof.Proof.RunIdeal
import proofs.«405154_j39573828665596_1_alg».proof.Proof.TileScore
import proofs.«405154_j39573828665596_1_alg».proof.Proof.FinalArr
import proofs.«405154_j39573828665596_1_alg».proof.Proof.RefScore
import proofs.«405154_j39573828665596_1_alg».proof.Proof.KernelHost
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level program runs to the end and leaves its arguments unchanged. -/
theorem frame_k : Cert.frame_Kernel := fun m ρ _ => Cert.Kernel.Body.frame m ρ

/-- So does the idealized program: its value run, the result dropped. -/
theorem frame_ki : Cert.frame_KernelIdeal := fun m ρ _ =>
  (θ_run Cert.KernelIdeal.defs _ _).mono (fun _ h c => (h c).2)
    (Cert.KernelIdeal.Body.run_result m ρ Cert.RotDist.Tile.out_apply)

/-- And the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs end with the same scores: entry (b, e) of either result is the score of the
    rotated head `b` against entity row `e`, the rotated heads being the same arrays under the precondition. -/
theorem algebraic : Cert.algebraic_KernelIdeal_ReferenceIdeal := by
  intro m ρ m' ρ' hpre hagree
  refine ⟨fun c => Cert.KernelIdeal.Body.outArr m c, ?_, ?_⟩
  · exact (θ_run Cert.KernelIdeal.defs _ _).mono
      (fun _ h c => ⟨(h c).1.trans (Cert.KernelIdeal.Body.final_out m Cert.RotDist.Tile.out_apply c), (h c).2⟩)
      (Cert.KernelIdeal.Body.run_result m ρ Cert.RotDist.Tile.out_apply)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v48_eq, (hagree c).1, (hagree c).2.1, (hagree c).2.2]
    funext y
    obtain ⟨b, e, rfl⟩ : ∃ (b : Fin 32) (e : Fin 100000), y = ix2 b e := ⟨_, _, eq_ix2 y⟩
    rw [Cert.RotDist.Ref.ref_apply]
    show _ = Cert.RotDist.score (Cert.KernelIdeal.Gen.V m c Cert.KernelIdeal.main_v14) (Cert.KernelIdeal.Gen.V m c Cert.KernelIdeal.main_v17)
      (Cert.KernelIdeal.Gen.V m c Cert.KernelIdeal.main_arg1) b e
    rw [Cert.RotDist.KHost.V_re m hpre c, Cert.RotDist.KHost.V_im m hpre c, Cert.KernelIdeal.Gen.V_main_arg1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
